-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_50" .f32 0x3CA3D70A#32 ((1 / 50 : ℝ) : EReal)
  ∧ IdealRules.named_const.Statement Cert.KernelIdeal.κ "inv_2000" .f32 0x3A03126F#32 ((1 / 2000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x50x2000x3 : Shape := ⟨4, ![32, 50, 2000, 3]⟩
abbrev S2x1000000 : Shape := ⟨2, ![2, 1000000]⟩
abbrev S3x64 : Shape := ⟨2, ![3, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S32x50x2000x3 : S_.BroadcastsInDim S32x50x2000x3 (![] : Fin 0 → Fin S32x50x2000x3.rank)
  reducesTo_S32x50x2000x3_S_d0_1_2_3 : S32x50x2000x3.ReducesTo [0, 1, 2, 3] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S64 .f32) (main_arg6 : FVec F S64x2 .f32) (main_arg7 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S32x50x2000x3 .f32) (main_arg1 : IVec S2x1000000 32) (main_arg2 : FVec F S3x64 .f32) (main_arg3 : FVec F S64 .f32) (main_arg4 : FVec F S64x64 .f32) (main_arg5 : FVec F S64 .f32) (main_arg6 : FVec F S64x2 .f32) (main_arg7 : FVec F S2 .f32) : IVec S_ 1 :=
  let main_v0 : FVec F S32x50x2000x3 .f32 := Host.absf main_arg0
  let main_cst : FVec F S_ .f32 := constant S_ .f32 0x7F800000#32
  let main_v1 : FVec F S32x50x2000x3 .f32 := broadcastInDim S32x50x2000x3 ![] bcast_S_S32x50x2000x3 main_cst
  let main_v2 : IVec S32x50x2000x3 1 := cmpf .olt main_v0 main_v1
  let main_c : IVec S_ 1 := constantI S_ 1 1#1
  let main_v3 : IVec S_ 1 := (fun x v => Host.reduce IntOp.andi x v reducesTo_S32x50x2000x3_S_d0_1_2_3 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S32x50x2000x3 : Shape := ⟨4, ![32, 50, 2000, 3]⟩
abbrev S2x1000000 : Shape := ⟨2, ![2, 1000000]⟩
abbrev S3x64 : Shape := ⟨2, ![3, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S32x50x6000 : Shape := ⟨3, ![32, 50, 6000]⟩
abbrev S32x1x6000 : Shape := ⟨3, ![32, 1, 6000]⟩
abbrev S1x50x6000 : Shape := ⟨3, ![1, 50, 6000]⟩
abbrev S1x1x6000 : Shape := ⟨3, ![1, 1, 6000]⟩
abbrev S1x6000 : Shape := ⟨2, ![1, 6000]⟩
abbrev S64000x3 : Shape := ⟨2, ![64000, 3]⟩
abbrev S64000 : Shape := ⟨1, ![64000]⟩
abbrev S1x1000000 : Shape := ⟨2, ![1, 1000000]⟩
abbrev S1000000 : Shape := ⟨1, ![1000000]⟩
abbrev S1064000 : Shape := ⟨1, ![1064000]⟩
abbrev S_ : Shape := ⟨0, ![]⟩
abbrev S1064000x1 : Shape := ⟨2, ![1064000, 1]⟩
abbrev S64000x64 : Shape := ⟨2, ![64000, 64]⟩
abbrev S8000x3 : Shape := ⟨2, ![8000, 3]⟩
abbrev S8000x64 : Shape := ⟨2, ![8000, 64]⟩
abbrev S1064000x64 : Shape := ⟨2, ![1064000, 64]⟩
abbrev S1x64 : Shape := ⟨2, ![1, 64]⟩
abbrev S32x2000x64 : Shape := ⟨3, ![32, 2000, 64]⟩
abbrev S1x2 : Shape := ⟨2, ![1, 2]⟩
abbrev S32x2 : Shape := ⟨2, ![32, 2]⟩
abbrev S8x2000x64 : Shape := ⟨3, ![8, 2000, 64]⟩
abbrev S8x2 : Shape := ⟨2, ![8, 2]⟩
abbrev S8x64 : Shape := ⟨2, ![8, 64]⟩

abbrev nBuf : Space → Nat
  | .hbm => 100
  | .vmem => 20
  | .smem => 0
  | _ => 0

abbrev bufTy : (tb : Table) → Fin (tcTables nBuf tb) → BufTy
  | .hbm, ⟨0, _⟩ => ⟨S32x50x2000x3, .f32⟩
  | .hbm, ⟨1, _⟩ => ⟨S2x1000000, .i32⟩
  | .hbm, ⟨2, _⟩ => ⟨S3x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S32x50x6000, .f32⟩
  | .hbm, ⟨9, _⟩ => ⟨S32x1x6000, .f32⟩
  | .hbm, ⟨10, _⟩ => ⟨S64000x3, .f32⟩
  | .hbm, ⟨11, _⟩ => ⟨S64000, .i32⟩
  | .hbm, ⟨12, _⟩ => ⟨S1x1000000, .i32⟩
  | .hbm, ⟨13, _⟩ => ⟨S1000000, .i32⟩
  | .hbm, ⟨14, _⟩ => ⟨S1064000, .i32⟩
  | .hbm, ⟨15, _⟩ => ⟨S1x1000000, .i32⟩
  | .hbm, ⟨16, _⟩ => ⟨S1000000, .i32⟩
  | .hbm, ⟨17, _⟩ => ⟨S1064000, .i32⟩
  | .hbm, ⟨18, _⟩ => ⟨S_, .f32⟩
  | .hbm, ⟨19, _⟩ => ⟨S1064000, .f32⟩
  | .hbm, ⟨20, _⟩ => ⟨S_, .f32⟩
  | .hbm, ⟨21, _⟩ => ⟨S64000, .f32⟩
  | .hbm, ⟨22, _⟩ => ⟨S1064000x1, .i32⟩
  | .hbm, ⟨23, _⟩ => ⟨S64000, .f32⟩
  | .hbm, ⟨24, _⟩ => ⟨S_, .f32⟩
  | .hbm, ⟨25, _⟩ => ⟨S64000, .f32⟩
  | .hbm, ⟨26, _⟩ => ⟨S64000, .i1⟩
  | .hbm, ⟨27, _⟩ => ⟨S64000, .f32⟩
  | .hbm, ⟨28, _⟩ => ⟨S_, .f32⟩
  | .hbm, ⟨29, _⟩ => ⟨S_, .f32⟩
  | .hbm, ⟨30, _⟩ => ⟨S64000, .f32⟩
  | .hbm, ⟨31, _⟩ => ⟨S64000, .f32⟩
  | .hbm, ⟨32, _⟩ => ⟨S_, .i32⟩
  | .hbm, ⟨33, _⟩ => ⟨S1064000, .i32⟩
  | .hbm, ⟨34, _⟩ => ⟨S1064000, .i1⟩
  | .hbm, ⟨35, _⟩ => ⟨S_, .i32⟩
  | .hbm, ⟨36, _⟩ => ⟨S1064000, .i32⟩
  | .hbm, ⟨37, _⟩ => ⟨S1064000, .i32⟩
  | .hbm, ⟨38, _⟩ => ⟨S1064000, .i32⟩
  | .hbm, ⟨39, _⟩ => ⟨S1064000x1, .i32⟩
  | .hbm, ⟨40, _⟩ => ⟨S1064000, .f32⟩
  | .hbm, ⟨41, _⟩ => ⟨S_, .i32⟩
  | .hbm, ⟨42, _⟩ => ⟨S1064000, .i32⟩
  | .hbm, ⟨43, _⟩ => ⟨S1064000, .i1⟩
  | .hbm, ⟨44, _⟩ => ⟨S_, .i32⟩
  | .hbm, ⟨45, _⟩ => ⟨S1064000, .i32⟩
  | .hbm, ⟨46, _⟩ => ⟨S1064000, .i32⟩
  | .hbm, ⟨47, _⟩ => ⟨S1064000, .i32⟩
  | .hbm, ⟨48, _⟩ => ⟨S1064000x1, .i32⟩
  | .hbm, ⟨49, _⟩ => ⟨S1064000, .f32⟩
  | .hbm, ⟨50, _⟩ => ⟨S1064000, .f32⟩
  | .hbm, ⟨51, _⟩ => ⟨S64000x64, .f32⟩
  | .hbm, ⟨52, _⟩ => ⟨S_, .i32⟩
  | .hbm, ⟨53, _⟩ => ⟨S1064000, .i32⟩
  | .hbm, ⟨54, _⟩ => ⟨S1064000, .i1⟩
  | .hbm, ⟨55, _⟩ => ⟨S_, .i32⟩
  | .hbm, ⟨56, _⟩ => ⟨S1064000, .i32⟩
  | .hbm, ⟨57, _⟩ => ⟨S1064000, .i32⟩
  | .hbm, ⟨58, _⟩ => ⟨S1064000, .i32⟩
  | .hbm, ⟨59, _⟩ => ⟨S1064000x1, .i32⟩
  | .hbm, ⟨60, _⟩ => ⟨S1064000x64, .f32⟩
  | .hbm, ⟨61, _⟩ => ⟨S1064000x1, .f32⟩
  | .hbm, ⟨62, _⟩ => ⟨S1064000x64, .f32⟩
  | .hbm, ⟨63, _⟩ => ⟨S1064000x64, .f32⟩
  | .hbm, ⟨64, _⟩ => ⟨S_, .f32⟩
  | .hbm, ⟨65, _⟩ => ⟨S64000x64, .f32⟩
  | .hbm, ⟨66, _⟩ => ⟨S1064000x1, .i32⟩
  | .hbm, ⟨67, _⟩ => ⟨S64000x64, .f32⟩
  | .hbm, ⟨68, _⟩ => ⟨S1x64, .f32⟩
  | .hbm, ⟨69, _⟩ => ⟨S64000x64, .f32⟩
  | .hbm, ⟨70, _⟩ => ⟨S64000x64, .f32⟩
  | .hbm, ⟨71, _⟩ => ⟨S_, .f32⟩
  | .hbm, ⟨72, _⟩ => ⟨S64000x64, .f32⟩
  | .hbm, ⟨73, _⟩ => ⟨S64000x64, .f32⟩
  | .hbm, ⟨74, _⟩ => ⟨S64000x64, .f32⟩
  | .hbm, ⟨75, _⟩ => ⟨S_, .i32⟩
  | .hbm, ⟨76, _⟩ => ⟨S1064000, .i32⟩
  | .hbm, ⟨77, _⟩ => ⟨S1064000, .i1⟩
  | .hbm, ⟨78, _⟩ => ⟨S_, .i32⟩
  | .hbm, ⟨79, _⟩ => ⟨S1064000, .i32⟩
  | .hbm, ⟨80, _⟩ => ⟨S1064000, .i32⟩
  | .hbm, ⟨81, _⟩ => ⟨S1064000, .i32⟩
  | .hbm, ⟨82, _⟩ => ⟨S1064000x1, .i32⟩
  | .hbm, ⟨83, _⟩ => ⟨S1064000x64, .f32⟩
  | .hbm, ⟨84, _⟩ => ⟨S1064000x1, .f32⟩
  | .hbm, ⟨85, _⟩ => ⟨S1064000x64, .f32⟩
  | .hbm, ⟨86, _⟩ => ⟨S1064000x64, .f32⟩
  | .hbm, ⟨87, _⟩ => ⟨S_, .f32⟩
  | .hbm, ⟨88, _⟩ => ⟨S64000x64, .f32⟩
  | .hbm, ⟨89, _⟩ => ⟨S1064000x1, .i32⟩
  | .hbm, ⟨90, _⟩ => ⟨S64000x64, .f32⟩
  | .hbm, ⟨91, _⟩ => ⟨S1x64, .f32⟩
  | .hbm, ⟨92, _⟩ => ⟨S64000x64, .f32⟩
  | .hbm, ⟨93, _⟩ => ⟨S64000x64, .f32⟩
  | .hbm, ⟨94, _⟩ => ⟨S_, .f32⟩
  | .hbm, ⟨95, _⟩ => ⟨S64000x64, .f32⟩
  | .hbm, ⟨96, _⟩ => ⟨S64000x64, .f32⟩
  | .hbm, ⟨97, _⟩ => ⟨S32x2000x64, .f32⟩
  | .hbm, ⟨98, _⟩ => ⟨S1x2, .f32⟩
  | .hbm, ⟨99, _⟩ => ⟨S32x2, .f32⟩
  | .local _ .vmem, ⟨0, _⟩ => ⟨S1x50x6000, .f32⟩
  | .local _ .vmem, ⟨1, _⟩ => ⟨S1x50x6000, .f32⟩
  | .local _ .vmem, ⟨2, _⟩ => ⟨S1x1x6000, .f32⟩
  | .local _ .vmem, ⟨3, _⟩ => ⟨S1x1x6000, .f32⟩
  | .local _ .vmem, ⟨4, _⟩ => ⟨S8000x3, .f32⟩
  | .local _ .vmem, ⟨5, _⟩ => ⟨S8000x3, .f32⟩
  | .local _ .vmem, ⟨6, _⟩ => ⟨S3x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S64x64, .f32⟩
  | .local _ .vmem, ⟨12, _⟩ => ⟨S8000x64, .f32⟩
  | .local _ .vmem, ⟨13, _⟩ => ⟨S8000x64, .f32⟩
  | .local _ .vmem, ⟨14, _⟩ => ⟨S8x2000x64, .f32⟩
  | .local _ .vmem, ⟨15, _⟩ => ⟨S8x2000x64, .f32⟩
  | .local _ .vmem, ⟨16, _⟩ => ⟨S64x2, .f32⟩
  | .local _ .vmem, ⟨17, _⟩ => ⟨S1x2, .f32⟩
  | .local _ .vmem, ⟨18, _⟩ => ⟨S8x2, .f32⟩
  | .local _ .vmem, ⟨19, _⟩ => ⟨S8x2, .f32⟩
  | _, _ => ⟨S32x50x2000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call2_cst : Ref sig .tc := ⟨.hbm, 94, rfl⟩
abbrev main_call2_v0 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem3_0 : DmaSem sig := 18
abbrev cc3_sem3_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x50x6000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S32x50x2000x3_S32x50x6000 : S32x50x2000x3.ShapeCasts S32x50x6000
  inb_S1x50x6000_S1x50x6000_0_0_0 : ∀ a, (![0, 0, 0] : Fin 3 → Nat) a + S1x50x6000.size a ≤ S1x50x6000.size a
  h_S1x50x6000 : 0 < S1x50x6000.numel
  shapeCasts_S1x50x6000_S1x50x6000 : S1x50x6000.ShapeCasts S1x50x6000
  reduces_S1x50x6000_S1x6000 : S1x50x6000.Reduces [1] S1x6000
  shapeCasts_S1x6000_S1x1x6000 : S1x6000.ShapeCasts S1x1x6000
  inb_S1x1x6000_S1x1x6000_0_0_0 : ∀ a, (![0, 0, 0] : Fin 3 → Nat) a + S1x1x6000.size a ≤ S1x1x6000.size a
  h_S1x1x6000 : 0 < S1x1x6000.numel
  shapeCasts_S32x1x6000_S64000x3 : S32x1x6000.ShapeCasts S64000x3
  slices_S2x1000000_S1x1000000_0_0 : S2x1000000.Slices ![0, 0] S1x1000000
  shapeCasts_S1x1000000_S1000000 : S1x1000000.ShapeCasts S1000000
  concatenates_S1000000_S64000_S1064000_d0 : Shape.Concatenates [S1000000, S64000] S1064000 0
  slices_S2x1000000_S1x1000000_1_0 : S2x1000000.Slices ![1, 0] S1x1000000
  bcast_S_S1064000 : S_.BroadcastsInDim S1064000 (![] : Fin 0 → Fin S1064000.rank)
  bcast_S_S64000 : S_.BroadcastsInDim S64000 (![] : Fin 0 → Fin S64000.rank)
  bcast_S1064000_S1064000x1_0 : S1064000.BroadcastsInDim S1064000x1 (![0] : Fin 1 → Fin S1064000x1.rank)
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S8000x64_S8000x64_0_0 : ∀ a, (![0, 0] : Fin 2 → Nat) a + S8000x64.size a ≤ S8000x64.size a
  h_S8000x64 : 0 < S8000x64.numel
  bcast_S1064000x1_S1064000x64_0_1 : S1064000x1.BroadcastsInDim S1064000x64 (![0, 1] : Fin 2 → Fin S1064000x64.rank)
  bcast_S_S64000x64 : S_.BroadcastsInDim S64000x64 (![] : Fin 0 → Fin S64000x64.rank)
  bcast_S64_S1x64_1 : S64.BroadcastsInDim S1x64 (![1] : Fin 1 → Fin S1x64.rank)
  bcast_S1x64_S64000x64_0_1 : S1x64.BroadcastsInDim S64000x64 (![0, 1] : Fin 2 → Fin S64000x64.rank)
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64000x64_S32x2000x64 : S64000x64.ShapeCasts S32x2000x64
  shapeCasts_S2_S1x2 : S2.ShapeCasts S1x2
  inb_S8x2000x64_S8x2000x64_0_0_0 : ∀ a, (![0, 0, 0] : Fin 3 → Nat) a + S8x2000x64.size a ≤ S8x2000x64.size a
  h_S8x2000x64 : 0 < S8x2000x64.numel
  shapeCasts_S8x2000x64_S8x2000x64 : S8x2000x64.ShapeCasts S8x2000x64
  reduces_S8x2000x64_S8x64 : S8x2000x64.Reduces [1] S8x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8x2 : S1x2.Broadcasts S8x2
  inb_S8x2_S8x2_0_0 : ∀ a, (![0, 0] : Fin 2 → Nat) a + S8x2.size a ≤ S8x2.size a
  h_S8x2 : 0 < S8x2.numel
  scatter_S64000_S1064000x1_S1064000_n_0_0_1_wf : ScatterDims.WF S64000 S1064000x1 S1064000 [] [0] [0] 1
  gather_S64000_S1064000x1_S1064000_n_0_n_n_0_1_1_wf : GatherDims.WF S64000 S1064000x1 S1064000 [] [0] [] [0] [] 1 ![1]
  dot_S8000x3_S3x64_S8000x64_1_0_0_1_n_n_wf : DotDims.WF S8000x3 S3x64 S8000x64 [1] [0] [0] [1] [] []
  gather_S64000x64_S1064000x1_S1064000x64_1_0_n_n_0_1_164_wf : GatherDims.WF S64000x64 S1064000x1 S1064000x64 [1] [0] [] [0] [] 1 ![1, 64]
  scatter_S64000x64_S1064000x1_S1064000x64_1_0_0_1_wf : ScatterDims.WF S64000x64 S1064000x1 S1064000x64 [1] [0] [0] 1
  dot_S8000x64_S64x64_S8000x64_1_0_0_1_n_n_wf : DotDims.WF S8000x64 S64x64 S8000x64 [1] [0] [0] [1] [] []
  dot_S8x64_S64x2_S8x2_1_0_0_1_n_n_wf : DotDims.WF S8x64 S64x2 S8x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x50x6000.size a ≤ S32x50x6000.size a
  hwx0_0 : ∀ i : grid0.Coords, EltTy.bits .f32 = 32 ∨ (Rect.block (s := S32x50x6000) S1x50x6000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x6000.size a ≤ S32x1x6000.size a
  hwx0_1 : ∀ i : grid0.Coords, EltTy.bits .f32 = 32 ∨ (Rect.block (s := S32x1x6000) S1x1x6000.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x3.size a ≤ S64000x3.size a
  hwx1_0 : ∀ i : grid1.Coords, EltTy.bits .f32 = 32 ∨ (Rect.block (s := S64000x3) S8000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x64.size a ≤ S3x64.size a
  hwx1_1 : ∀ i : grid1.Coords, EltTy.bits .f32 = 32 ∨ (Rect.block (s := S3x64) S3x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S64000x64.size a
  hwx1_2 : ∀ i : grid1.Coords, EltTy.bits .f32 = 32 ∨ (Rect.block (s := S64000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S64000x64.size a
  hwx2_0 : ∀ i : grid2.Coords, EltTy.bits .f32 = 32 ∨ (Rect.block (s := S64000x64) S8000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S64000x64.size a
  hwx2_2 : ∀ i : grid2.Coords, EltTy.bits .f32 = 32 ∨ (Rect.block (s := S64000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x2000x64.size a ≤ S32x2000x64.size a
  hwx3_0 : ∀ i : grid3.Coords, EltTy.bits .f32 = 32 ∨ (Rect.block (s := S32x2000x64) S8x2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x2.size a ≤ S64x2.size a
  hwx3_1 : ∀ i : grid3.Coords, EltTy.bits .f32 = 32 ∨ (Rect.block (s := S64x2) S64x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x2.size a ≤ S32x2.size a
  hwx3_3 : ∀ i : grid3.Coords, EltTy.bits .f32 = 32 ∨ (Rect.block (s := S32x2) S8x2.size (cc3_transform_3 i) (hinb3_3 i)).WholeWords (EltTy.packing .f32)

variable [Facts₀]

def scatter_S64000_S1064000x1_S1064000_n_0_0_1 : ScatterDims S64000 S1064000x1 S1064000 where
  updateWindowDims := []
  insertedWindowDims := [0]
  scatterDimsToOperandDims := [0]
  indexVectorDim := 1
  wf := scatter_S64000_S1064000x1_S1064000_n_0_0_1_wf
def gather_S64000_S1064000x1_S1064000_n_0_n_n_0_1_1 : GatherDims S64000 S1064000x1 S1064000 where
  offsetDims := []
  collapsedSliceDims := [0]
  operandBatchingDims := []
  startIndicesBatchingDims := []
  startIndexMap := [0]
  indexVectorDim := 1
  sliceSizes := ![1]
  wf := gather_S64000_S1064000x1_S1064000_n_0_n_n_0_1_1_wf
def dot_S8000x3_S3x64_S8000x64_1_0_0_1_n_n : DotDims S8000x3 S3x64 S8000x64 where
  lhsContracting := [1]
  rhsContracting := [0]
  lhsNonContracting := [0]
  rhsNonContracting := [1]
  lhsBatch := []
  rhsBatch := []
  wf := dot_S8000x3_S3x64_S8000x64_1_0_0_1_n_n_wf
def gather_S64000x64_S1064000x1_S1064000x64_1_0_n_n_0_1_164 : GatherDims S64000x64 S1064000x1 S1064000x64 where
  offsetDims := [1]
  collapsedSliceDims := [0]
  operandBatchingDims := []
  startIndicesBatchingDims := []
  startIndexMap := [0]
  indexVectorDim := 1
  sliceSizes := ![1, 64]
  wf := gather_S64000x64_S1064000x1_S1064000x64_1_0_n_n_0_1_164_wf
def scatter_S64000x64_S1064000x1_S1064000x64_1_0_0_1 : ScatterDims S64000x64 S1064000x1 S1064000x64 where
  updateWindowDims := [1]
  insertedWindowDims := [0]
  scatterDimsToOperandDims := [0]
  indexVectorDim := 1
  wf := scatter_S64000x64_S1064000x1_S1064000x64_1_0_0_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8x64_S64x2_S8x2_1_0_0_1_n_n : DotDims S8x64 S64x2 S8x2 where
  lhsContracting := [1]
  rhsContracting := [0]
  lhsNonContracting := [0]
  rhsNonContracting := [1]
  lhsBatch := []
  rhsBatch := []
  wf := dot_S8x64_S64x2_S8x2_1_0_0_1_n_n_wf

abbrev win0_0 : Pipeline.Window sig grid0 :=
  Pipeline.Window.ofSpec (Memref.whole main_v0) S1x50x6000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x6000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S8000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S3x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S8x2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S8x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S32x50x2000x3 : Shape := ⟨4, ![32, 50, 2000, 3]⟩
abbrev S2x1000000 : Shape := ⟨2, ![2, 1000000]⟩
abbrev S3x64 : Shape := ⟨2, ![3, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩
abbrev S32x2000x3 : Shape := ⟨3, ![32, 2000, 3]⟩
abbrev S64000x3 : Shape := ⟨2, ![64000, 3]⟩
abbrev S64000 : Shape := ⟨1, ![64000]⟩
abbrev S1x1000000 : Shape := ⟨2, ![1, 1000000]⟩
abbrev S1000000 : Shape := ⟨1, ![1000000]⟩
abbrev S1064000 : Shape := ⟨1, ![1064000]⟩
abbrev S1064000x1 : Shape := ⟨2, ![1064000, 1]⟩
abbrev S64000x64 : Shape := ⟨2, ![64000, 64]⟩
abbrev S1064000x64 : Shape := ⟨2, ![1064000, 64]⟩
abbrev S1x64 : Shape := ⟨2, ![1, 64]⟩
abbrev S32x2000x64 : Shape := ⟨3, ![32, 2000, 64]⟩
abbrev S32x64 : Shape := ⟨2, ![32, 64]⟩
abbrev S32x2 : Shape := ⟨2, ![32, 2]⟩
abbrev S1x2 : Shape := ⟨2, ![1, 2]⟩

abbrev nBuf : Space → Nat
  | .hbm => 110
  | .vmem => 0
  | .smem => 0
  | _ => 0

abbrev bufTy : (tb : Table) → Fin (tcTables nBuf tb) → BufTy
  | .hbm, ⟨0, _⟩ => ⟨S32x50x2000x3, .f32⟩
  | .hbm, ⟨1, _⟩ => ⟨S2x1000000, .i32⟩
  | .hbm, ⟨2, _⟩ => ⟨S3x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S_, .f32⟩
  | .hbm, ⟨9, _⟩ => ⟨S32x2000x3, .f32⟩
  | .hbm, ⟨10, _⟩ => ⟨S_, .f32⟩
  | .hbm, ⟨11, _⟩ => ⟨S32x2000x3, .f32⟩
  | .hbm, ⟨12, _⟩ => ⟨S32x2000x3, .f32⟩
  | .hbm, ⟨13, _⟩ => ⟨S64000x3, .f32⟩
  | .hbm, ⟨14, _⟩ => ⟨S64000, .i32⟩
  | .hbm, ⟨15, _⟩ => ⟨S1x1000000, .i32⟩
  | .hbm, ⟨16, _⟩ => ⟨S1000000, .i32⟩
  | .hbm, ⟨17, _⟩ => ⟨S1064000, .i32⟩
  | .hbm, ⟨18, _⟩ => ⟨S1x1000000, .i32⟩
  | .hbm, ⟨19, _⟩ => ⟨S1000000, .i32⟩
  | .hbm, ⟨20, _⟩ => ⟨S1064000, .i32⟩
  | .hbm, ⟨21, _⟩ => ⟨S_, .f32⟩
  | .hbm, ⟨22, _⟩ => ⟨S1064000, .f32⟩
  | .hbm, ⟨23, _⟩ => ⟨S_, .f32⟩
  | .hbm, ⟨24, _⟩ => ⟨S64000, .f32⟩
  | .hbm, ⟨25, _⟩ => ⟨S1064000x1, .i32⟩
  | .hbm, ⟨26, _⟩ => ⟨S64000, .f32⟩
  | .hbm, ⟨27, _⟩ => ⟨S_, .f32⟩
  | .hbm, ⟨28, _⟩ => ⟨S64000, .f32⟩
  | .hbm, ⟨29, _⟩ => ⟨S64000, .i1⟩
  | .hbm, ⟨30, _⟩ => ⟨S64000, .f32⟩
  | .hbm, ⟨31, _⟩ => ⟨S_, .f32⟩
  | .hbm, ⟨32, _⟩ => ⟨S_, .f32⟩
  | .hbm, ⟨33, _⟩ => ⟨S64000, .f32⟩
  | .hbm, ⟨34, _⟩ => ⟨S64000, .f32⟩
  | .hbm, ⟨35, _⟩ => ⟨S_, .i32⟩
  | .hbm, ⟨36, _⟩ => ⟨S1064000, .i32⟩
  | .hbm, ⟨37, _⟩ => ⟨S1064000, .i1⟩
  | .hbm, ⟨38, _⟩ => ⟨S_, .i32⟩
  | .hbm, ⟨39, _⟩ => ⟨S1064000, .i32⟩
  | .hbm, ⟨40, _⟩ => ⟨S1064000, .i32⟩
  | .hbm, ⟨41, _⟩ => ⟨S1064000, .i32⟩
  | .hbm, ⟨42, _⟩ => ⟨S1064000x1, .i32⟩
  | .hbm, ⟨43, _⟩ => ⟨S1064000, .f32⟩
  | .hbm, ⟨44, _⟩ => ⟨S_, .i32⟩
  | .hbm, ⟨45, _⟩ => ⟨S1064000, .i32⟩
  | .hbm, ⟨46, _⟩ => ⟨S1064000, .i1⟩
  | .hbm, ⟨47, _⟩ => ⟨S_, .i32⟩
  | .hbm, ⟨48, _⟩ => ⟨S1064000, .i32⟩
  | .hbm, ⟨49, _⟩ => ⟨S1064000, .i32⟩
  | .hbm, ⟨50, _⟩ => ⟨S1064000, .i32⟩
  | .hbm, ⟨51, _⟩ => ⟨S1064000x1, .i32⟩
  | .hbm, ⟨52, _⟩ => ⟨S1064000, .f32⟩
  | .hbm, ⟨53, _⟩ => ⟨S1064000, .f32⟩
  | .hbm, ⟨54, _⟩ => ⟨S64000x64, .f32⟩
  | .hbm, ⟨55, _⟩ => ⟨S_, .i32⟩
  | .hbm, ⟨56, _⟩ => ⟨S1064000, .i32⟩
  | .hbm, ⟨57, _⟩ => ⟨S1064000, .i1⟩
  | .hbm, ⟨58, _⟩ => ⟨S_, .i32⟩
  | .hbm, ⟨59, _⟩ => ⟨S1064000, .i32⟩
  | .hbm, ⟨60, _⟩ => ⟨S1064000, .i32⟩
  | .hbm, ⟨61, _⟩ => ⟨S1064000, .i32⟩
  | .hbm, ⟨62, _⟩ => ⟨S1064000x1, .i32⟩
  | .hbm, ⟨63, _⟩ => ⟨S1064000x64, .f32⟩
  | .hbm, ⟨64, _⟩ => ⟨S1064000x1, .f32⟩
  | .hbm, ⟨65, _⟩ => ⟨S1064000x64, .f32⟩
  | .hbm, ⟨66, _⟩ => ⟨S1064000x64, .f32⟩
  | .hbm, ⟨67, _⟩ => ⟨S_, .f32⟩
  | .hbm, ⟨68, _⟩ => ⟨S64000x64, .f32⟩
  | .hbm, ⟨69, _⟩ => ⟨S1064000x1, .i32⟩
  | .hbm, ⟨70, _⟩ => ⟨S64000x64, .f32⟩
  | .hbm, ⟨71, _⟩ => ⟨S1x64, .f32⟩
  | .hbm, ⟨72, _⟩ => ⟨S64000x64, .f32⟩
  | .hbm, ⟨73, _⟩ => ⟨S64000x64, .f32⟩
  | .hbm, ⟨74, _⟩ => ⟨S_, .f32⟩
  | .hbm, ⟨75, _⟩ => ⟨S64000x64, .f32⟩
  | .hbm, ⟨76, _⟩ => ⟨S64000x64, .f32⟩
  | .hbm, ⟨77, _⟩ => ⟨S64000x64, .f32⟩
  | .hbm, ⟨78, _⟩ => ⟨S_, .i32⟩
  | .hbm, ⟨79, _⟩ => ⟨S1064000, .i32⟩
  | .hbm, ⟨80, _⟩ => ⟨S1064000, .i1⟩
  | .hbm, ⟨81, _⟩ => ⟨S_, .i32⟩
  | .hbm, ⟨82, _⟩ => ⟨S1064000, .i32⟩
  | .hbm, ⟨83, _⟩ => ⟨S1064000, .i32⟩
  | .hbm, ⟨84, _⟩ => ⟨S1064000, .i32⟩
  | .hbm, ⟨85, _⟩ => ⟨S1064000x1, .i32⟩
  | .hbm, ⟨86, _⟩ => ⟨S1064000x64, .f32⟩
  | .hbm, ⟨87, _⟩ => ⟨S1064000x1, .f32⟩
  | .hbm, ⟨88, _⟩ => ⟨S1064000x64, .f32⟩
  | .hbm, ⟨89, _⟩ => ⟨S1064000x64, .f32⟩
  | .hbm, ⟨90, _⟩ => ⟨S_, .f32⟩
  | .hbm, ⟨91, _⟩ => ⟨S64000x64, .f32⟩
  | .hbm, ⟨92, _⟩ => ⟨S1064000x1, .i32⟩
  | .hbm, ⟨93, _⟩ => ⟨S64000x64, .f32⟩
  | .hbm, ⟨94, _⟩ => ⟨S1x64, .f32⟩
  | .hbm, ⟨95, _⟩ => ⟨S64000x64, .f32⟩
  | .hbm, ⟨96, _⟩ => ⟨S64000x64, .f32⟩
  | .hbm, ⟨97, _⟩ => ⟨S_, .f32⟩
  | .hbm, ⟨98, _⟩ => ⟨S64000x64, .f32⟩
  | .hbm, ⟨99, _⟩ => ⟨S64000x64, .f32⟩
  | .hbm, ⟨100, _⟩ => ⟨S32x2000x64, .f32⟩
  | .hbm, ⟨101, _⟩ => ⟨S_, .f32⟩
  | .hbm, ⟨102, _⟩ => ⟨S32x64, .f32⟩
  | .hbm, ⟨103, _⟩ => ⟨S_, .f32⟩
  | .hbm, ⟨104, _⟩ => ⟨S32x64, .f32⟩
  | .hbm, ⟨105, _⟩ => ⟨S32x64, .f32⟩
  | .hbm, ⟨106, _⟩ => ⟨S32x2, .f32⟩
  | .hbm, ⟨107, _⟩ => ⟨S1x2, .f32⟩
  | .hbm, ⟨108, _⟩ => ⟨S32x2, .f32⟩
  | .hbm, ⟨109, _⟩ => ⟨S32x2, .f32⟩
  | _, _ => ⟨S32x50x2000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]

class Facts₀ : Prop where
  reducesTo_S32x50x2000x3_S32x2000x3_d1 : S32x50x2000x3.ReducesTo [1] S32x2000x3
  h_S_ : 0 < S_.numel
  bcast_S_S32x2000x3 : S_.BroadcastsInDim S32x2000x3 (![] : Fin 0 → Fin S32x2000x3.rank)
  shapeCasts_S32x2000x3_S64000x3 : S32x2000x3.ShapeCasts S64000x3
  slices_S2x1000000_S1x1000000_0_0 : S2x1000000.Slices ![0, 0] S1x1000000
  shapeCasts_S1x1000000_S1000000 : S1x1000000.ShapeCasts S1000000
  concatenates_S1000000_S64000_S1064000_d0 : Shape.Concatenates [S1000000, S64000] S1064000 0
  slices_S2x1000000_S1x1000000_1_0 : S2x1000000.Slices ![1, 0] S1x1000000
  bcast_S_S1064000 : S_.BroadcastsInDim S1064000 (![] : Fin 0 → Fin S1064000.rank)
  bcast_S_S64000 : S_.BroadcastsInDim S64000 (![] : Fin 0 → Fin S64000.rank)
  bcast_S1064000_S1064000x1_0 : S1064000.BroadcastsInDim S1064000x1 (![0] : Fin 1 → Fin S1064000x1.rank)
  bcast_S1064000x1_S1064000x64_0_1 : S1064000x1.BroadcastsInDim S1064000x64 (![0, 1] : Fin 2 → Fin S1064000x64.rank)
  bcast_S_S64000x64 : S_.BroadcastsInDim S64000x64 (![] : Fin 0 → Fin S64000x64.rank)
  bcast_S64_S1x64_1 : S64.BroadcastsInDim S1x64 (![1] : Fin 1 → Fin S1x64.rank)
  bcast_S1x64_S64000x64_0_1 : S1x64.BroadcastsInDim S64000x64 (![0, 1] : Fin 2 → Fin S64000x64.rank)
  shapeCasts_S64000x64_S32x2000x64 : S64000x64.ShapeCasts S32x2000x64
  reducesTo_S32x2000x64_S32x64_d1 : S32x2000x64.ReducesTo [1] S32x64
  bcast_S_S32x64 : S_.BroadcastsInDim S32x64 (![] : Fin 0 → Fin S32x64.rank)
  bcast_S2_S1x2_1 : S2.BroadcastsInDim S1x2 (![1] : Fin 1 → Fin S1x2.rank)
  bcast_S1x2_S32x2_0_1 : S1x2.BroadcastsInDim S32x2 (![0, 1] : Fin 2 → Fin S32x2.rank)
  scatter_S64000_S1064000x1_S1064000_n_0_0_1_wf : ScatterDims.WF S64000 S1064000x1 S1064000 [] [0] [0] 1
  gather_S64000_S1064000x1_S1064000_n_0_n_n_0_1_1_wf : GatherDims.WF S64000 S1064000x1 S1064000 [] [0] [] [0] [] 1 ![1]
  dot_S64000x3_S3x64_S64000x64_1_0_0_1_n_n_wf : DotDims.WF S64000x3 S3x64 S64000x64 [1] [0] [0] [1] [] []
  gather_S64000x64_S1064000x1_S1064000x64_1_0_n_n_0_1_164_wf : GatherDims.WF S64000x64 S1064000x1 S1064000x64 [1] [0] [] [0] [] 1 ![1, 64]
  scatter_S64000x64_S1064000x1_S1064000x64_1_0_0_1_wf : ScatterDims.WF S64000x64 S1064000x1 S1064000x64 [1] [0] [0] 1
  dot_S64000x64_S64x64_S64000x64_1_0_0_1_n_n_wf : DotDims.WF S64000x64 S64x64 S64000x64 [1] [0] [0] [1] [] []
  dot_S32x64_S64x2_S32x2_1_0_0_1_n_n_wf : DotDims.WF S32x64 S64x2 S32x2 [1] [0] [0] [1] [] []

variable [Facts₀]

def scatter_S64000_S1064000x1_S1064000_n_0_0_1 : ScatterDims S64000 S1064000x1 S1064000 where
  updateWindowDims := []
  insertedWindowDims := [0]
  scatterDimsToOperandDims := [0]
  indexVectorDim := 1
  wf := scatter_S64000_S1064000x1_S1064000_n_0_0_1_wf
def gather_S64000_S1064000x1_S1064000_n_0_n_n_0_1_1 : GatherDims S64000 S1064000x1 S1064000 where
  offsetDims := []
  collapsedSliceDims := [0]
  operandBatchingDims := []
  startIndicesBatchingDims := []
  startIndexMap := [0]
  indexVectorDim := 1
  sliceSizes := ![1]
  wf := gather_S64000_S1064000x1_S1064000_n_0_n_n_0_1_1_wf
def dot_S64000x3_S3x64_S64000x64_1_0_0_1_n_n : DotDims S64000x3 S3x64 S64000x64 where
  lhsContracting := [1]
  rhsContracting := [0]
  lhsNonContracting := [0]
  rhsNonContracting := [1]
  lhsBatch := []
  rhsBatch := []
  wf := dot_S64000x3_S3x64_S64000x64_1_0_0_1_n_n_wf
def gather_S64000x64_S1064000x1_S1064000x64_1_0_n_n_0_1_164 : GatherDims S64000x64 S1064000x1 S1064000x64 where
  offsetDims := [1]
  collapsedSliceDims := [0]
  operandBatchingDims := []
  startIndicesBatchingDims := []
  startIndexMap := [0]
  indexVectorDim := 1
  sliceSizes := ![1, 64]
  wf := gather_S64000x64_S1064000x1_S1064000x64_1_0_n_n_0_1_164_wf
def scatter_S64000x64_S1064000x1_S1064000x64_1_0_0_1 : ScatterDims S64000x64 S1064000x1 S1064000x64 where
  updateWindowDims := [1]
  insertedWindowDims := [0]
  scatterDimsToOperandDims := [0]
  indexVectorDim := 1
  wf := scatter_S64000x64_S1064000x1_S1064000x64_1_0_0_1_wf
def dot_S64000x64_S64x64_S64000x64_1_0_0_1_n_n : DotDims S64000x64 S64x64 S64000x64 where
  lhsContracting := [1]
  rhsContracting := [0]
  lhsNonContracting := [0]
  rhsNonContracting := [1]
  lhsBatch := []
  rhsBatch := []
  wf := dot_S64000x64_S64x64_S64000x64_1_0_0_1_n_n_wf
def dot_S32x64_S64x2_S32x2_1_0_0_1_n_n : DotDims S32x64 S64x2 S32x2 where
  lhsContracting := [1]
  rhsContracting := [0]
  lhsNonContracting := [0]
  rhsNonContracting := [1]
  lhsBatch := []
  rhsBatch := []
  wf := dot_S32x64_S64x2_S32x2_1_0_0_1_n_n_wf

class Facts : Prop extends Facts₀ where

variable [Facts]
-- ==== Proof.Spec.lean ====
/-
  The function both programs compute, written once over whole arrays.

  A batch of 32 graphs of 2000 nodes, each node a 50-step series of 3 features.  With `e` the 2 x 1000000 edge list:
  * `nodeMean x`   : the mean over the 50 steps, one row of 3 features per node (64000 rows);
  * `srcIdx e`, `dstIdx e` : the edge list's two rows, each followed by the self loops 0 .. 63999;
  * `wrapIdx v`    : a negative index counted from the end (v + 64000 where v < 0);
  * `degree e`     : how many edges end at each node (a scatter-add of ones at `dstIdx e`);
  * `invSqrtDeg e` : degree^(-1/2) where the degree is positive, 0 elsewhere;
  * `edgeNorm e`   : per edge, invSqrtDeg at its source times invSqrtDeg at its target;
  * `gcnLayer e ht bias` : relu (scatter-add over target nodes of (row `src` of ht) * edgeNorm, plus bias);
  * `poolHead h wh bh`   : the mean of each graph's 2000 node rows, times wh, plus bh;
  * `whole`        : poolHead (gcnLayer (gcnLayer (nodeMean x · W1) b1 · W2) b2) Wh bh.
  Every operation is the host operation of that name, at any float instance.
-/
import proofs.«408987_j65163243815592_3_alg».proof.Proof.Gen.ReferenceIdeal

noncomputable section

namespace Cert.Spec

open Idealize.ShloMosaic Idealize.ShloMosaic.TcCoe Cert.ReferenceIdeal Cert.ReferenceIdeal.Gen

variable {F : FTy → Type} [FloatOps F]

/-- A float array of shape `S`. -/
abbrev FArr (F : FTy → Type) (S : Shape) : Type := (⟨S, .f32⟩ : BufTy).Contents (Elt F)
/-- A 32-bit integer array of shape `S`. -/
abbrev IArr (F : FTy → Type) (S : Shape) : Type := (⟨S, .i32⟩ : BufTy).Contents (Elt F)

/-- The mean over the 50 time steps, then one row per node. -/
def nodeMean (x : FArr F S32x50x2000x3) : FArr F S64000x3 :=
  shapeCast _ (Host.divf (Host.reduceAdd x (constant S_ .f32 0x00000000#32) reducesTo_S32x50x2000x3_S32x2000x3_d1 h_S_) (broadcastInDim S32x2000x3 ![] bcast_S_S32x2000x3 (constant S_ .f32 0x42480000#32))) shapeCasts_S32x2000x3_S64000x3

/-- Row 0 of the edge list, then the self loops. -/
def srcIdx (e : IArr F S2x1000000) : IArr F S1064000 :=
  concatenate S1064000 0 [⟨S1000000, (shapeCast _ (extractStridedSlice S1x1000000 ![0, 0] e slices_S2x1000000_S1x1000000_0_0) shapeCasts_S1x1000000_S1000000)⟩, ⟨S64000, (iotaInDim S64000 32 0)⟩] concatenates_S1000000_S64000_S1064000_d0

/-- Row 1 of the edge list, then the self loops. -/
def dstIdx (e : IArr F S2x1000000) : IArr F S1064000 :=
  concatenate S1064000 0 [⟨S1000000, (shapeCast _ (extractStridedSlice S1x1000000 ![1, 0] e slices_S2x1000000_S1x1000000_1_0) shapeCasts_S1x1000000_S1000000)⟩, ⟨S64000, (iotaInDim S64000 32 0)⟩] concatenates_S1000000_S64000_S1064000_d0

/-- A negative index counts from the end of the 64000 nodes. -/
def wrapIdx (v : IArr F S1064000) : IArr F S1064000 :=
  select (cmpi .slt v (broadcastInDim S1064000 ![] bcast_S_S1064000 (constantI S_ 32 0#32))) (addi v (broadcastInDim S1064000 ![] bcast_S_S1064000 (constantI S_ 32 64000#32))) v

/-- The number of edges (self loops included) that end at each node. -/
def degree (e : IArr F S2x1000000) : FArr F S64000 :=
  Host.scatterAdd scatter_S64000_S1064000x1_S1064000_n_0_0_1 (broadcastInDim S64000 ![] bcast_S_S64000 (constant S_ .f32 0x00000000#32)) (broadcastInDim S1064000x1 ![0] bcast_S1064000_S1064000x1_0 (dstIdx e)) (broadcastInDim S1064000 ![] bcast_S_S1064000 (constant S_ .f32 0x3F800000#32))

/-- degree^(-1/2) where the degree is positive, 0 elsewhere. -/
def invSqrtDeg (e : IArr F S2x1000000) : FArr F S64000 :=
  select (cmpf .ogt (degree e) (broadcastInDim S64000 ![] bcast_S_S64000 (constant S_ .f32 0x00000000#32))) (Host.rsqrt (degree e)) (broadcastInDim S64000 ![] bcast_S_S64000 (id (constant S_ .f32 0x00000000#32)))

/-- Per edge: invSqrtDeg at its source times invSqrtDeg at its target. -/
def edgeNorm (e : IArr F S2x1000000) : FArr F S1064000 :=
  mulf (Host.gather gather_S64000_S1064000x1_S1064000_n_0_n_n_0_1_1 (invSqrtDeg e) (broadcastInDim S1064000x1 ![0] bcast_S1064000_S1064000x1_0 (wrapIdx (srcIdx e)))) (Host.gather gather_S64000_S1064000x1_S1064000_n_0_n_n_0_1_1 (invSqrtDeg e) (broadcastInDim S1064000x1 ![0] bcast_S1064000_S1064000x1_0 (wrapIdx (dstIdx e))))

/-- One graph-convolution layer on transformed features `ht`: every edge carries its source's row scaled by the
    edge's norm to its target, the rows arriving at a node are added, the bias is added, and negatives are cut. -/
def gcnLayer (e : IArr F S2x1000000) (ht : FArr F S64000x64) (bias : FArr F S64) : FArr F S64000x64 :=
  maximumf (addf (Host.scatterAdd scatter_S64000x64_S1064000x1_S1064000x64_1_0_0_1 (broadcastInDim S64000x64 ![] bcast_S_S64000x64 (constant S_ .f32 0x00000000#32)) (broadcastInDim S1064000x1 ![0] bcast_S1064000_S1064000x1_0 (dstIdx e)) (mulf (Host.gather gather_S64000x64_S1064000x1_S1064000x64_1_0_n_n_0_1_164 ht (broadcastInDim S1064000x1 ![0] bcast_S1064000_S1064000x1_0 (wrapIdx (srcIdx e)))) (broadcastInDim S1064000x64 ![0, 1] bcast_S1064000x1_S1064000x64_0_1 (broadcastInDim S1064000x1 ![0] bcast_S1064000_S1064000x1_0 (edgeNorm e))))) (broadcastInDim S64000x64 ![0, 1] bcast_S1x64_S64000x64_0_1 (broadcastInDim S1x64 ![1] bcast_S64_S1x64_1 bias))) (broadcastInDim S64000x64 ![] bcast_S_S64000x64 (constant S_ .f32 0x00000000#32))

/-- The mean of each graph's 2000 node rows, times the head's weights, plus its bias. -/
def poolHead (h : FArr F S64000x64) (wh : FArr F S64x2) (bh : FArr F S2) : FArr F S32x2 :=
  addf (Host.dotGeneral dot_S32x64_S64x2_S32x2_1_0_0_1_n_n none (Host.divf (Host.reduceAdd (shapeCast _ h shapeCasts_S64000x64_S32x2000x64) (constant S_ .f32 0x00000000#32) reducesTo_S32x2000x64_S32x64_d1 h_S_) (broadcastInDim S32x64 ![] bcast_S_S32x64 (constant S_ .f32 0x44FA0000#32))) wh) (broadcastInDim S32x2 ![0, 1] bcast_S1x2_S32x2_0_1 (broadcastInDim S1x2 ![1] bcast_S2_S1x2_1 bh))

/-- The first layer's feature transform: node means times W1. -/
abbrev transform1 (h0 : FArr F S64000x3) (w1 : FArr F S3x64) : FArr F S64000x64 :=
  Host.dotGeneral dot_S64000x3_S3x64_S64000x64_1_0_0_1_n_n none h0 w1

/-- The second layer's feature transform: first-layer features times W2. -/
abbrev transform2 (h1 : FArr F S64000x64) (w2 : FArr F S64x64) : FArr F S64000x64 :=
  Host.dotGeneral dot_S64000x64_S64x64_S64000x64_1_0_0_1_n_n none h1 w2

/-- The whole network. -/
def whole (x : FArr F S32x50x2000x3) (e : IArr F S2x1000000) (w1 : FArr F S3x64) (b1 : FArr F S64)
    (w2 : FArr F S64x64) (b2 : FArr F S64) (wh : FArr F S64x2) (bh : FArr F S2) : FArr F S32x2 :=
  poolHead (gcnLayer e (transform2 (gcnLayer e (transform1 (nodeMean x) w1) b1) w2) b2) wh bh

end Cert.Spec

end
-- ==== Proof.RefSide.lean ====
/-
  The reference program's result, as its run states it, is the whole network of the specification applied to the
  argument arrays: the run's term is the same host operations, inlined.
-/
import proofs.«408987_j65163243815592_3_alg».proof.Proof.RefRun
import proofs.«408987_j65163243815592_3_alg».proof.Proof.Spec

set_option maxRecDepth 16384

noncomputable section

namespace Cert.ReferenceIdeal.RefSide

open Idealize.ShloMosaic Idealize.ShloMosaic.TcCoe Idealize.SL.Sem
open Cert.ReferenceIdeal Cert.ReferenceIdeal.Gen

variable {F : FTy → Type} [FloatOps F]

/-- The term the reference's run ends at is `Cert.Spec.whole` of the launch arrays. -/
theorem res_eq_whole (m : (ℓ : Loc nD τ sig) → Buf (Elt F) ℓ) (c : Dev nD) :
    Cert.ReferenceIdeal.RunP.res_main_v77 m c
      = Cert.Spec.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.RunP.res_main_v77
  rfl

end Cert.ReferenceIdeal.RefSide

end
-- ==== Proof.Region0.lean ====
/-
  REGION 0, the mean over the 50 time steps.

  The region's grid has 32 points; point b takes block (b, ·, ·) of the [32, 50, 6000] input and writes block (b, 0, ·) of
  the [32, 1, 6000] output: at lane l, the sum over the 50-axis of the block, times the named constant 1/50. So the
  output array at (b, 0, l) is (Σ_s input[b, s, l]) · (1/50). The input is the row-major recast of x : [32, 50, 2000, 3]
  (l = 3n + f), and the output is recast to [64000, 3] (row 2000·b + n, column f). The reference sums x over its axis 1
  from the initial value 0, divides by the literal 50, and recasts [32, 2000, 3] to [64000, 3]. Both sides at
  (2000·b + n, f) are (Σ_s x[b, s, n, f]) / 50: on the extended reals 0 + Σ = Σ, and a quotient by 50 is the product
  with 1/50 whatever the sum is, finite or not.
-/
import proofs.«408987_j65163243815592_3_alg».proof.Proof.Gen.KernelIdeal.Frame
import proofs.«408987_j65163243815592_3_alg».proof.Proof.Spec
import Idealize.ShloMosaic.Lib.Pipeline.Value
import Idealize.ShloMosaic.Lib.ValueIdx
import Idealize.ShloMosaic.PureOps.Ideal.Laws

set_option maxRecDepth 16384
noncomputable section
namespace Cert.KernelIdeal.RegionValue
open Idealize.ShloMosaic Idealize.ShloMosaic.TcCoe Idealize.SL.Sem
open Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The kernel's named reciprocal is the rational 1/50. -/
theorem inv50 : Named.named (F := Ideal) Cert.KernelIdeal.κ "inv_50" (φ := .f32) 0x3CA3D70A#32 = ((1 / 50 : ℝ) : EReal) :=
  IdealRules.named_const.ideal_named_scalar _ _ _ _ rfl

/-- The reference's divisor is the real 50. -/
theorem fifty : Ideal.ofBits .f32 0x42480000#32 = ((50 : ℝ) : EReal) := by
  simp [Ideal.ofBits, Ideal.ieee, -EReal.coe_mul]; norm_num

/-- The sum over the 50-axis of a [1,50,6000] block, at lane l. -/
theorem laneSum (x0 : FVec Ideal S1x50x6000 .f32) (hacc : (0x00000000#32 : BitVec 32) = 0x00000000#32)
    (p : Fin 1) (l : Fin 6000) :
    multiReduction .add [1] S1x6000 x0 0x00000000#32 reduces_S1x50x6000_S1x6000 (.inl rfl) hacc (ix2 p l)
      = ∑ s : Fin 50, x0 (ix3 p s l) := by
  refine (Ideal.multiReduction_add_single x0 0x00000000#32 reduces_S1x50x6000_S1x6000 (.inl rfl) hacc (ix2 p l)).trans ?_
  refine Finset.sum_congr rfl fun s _ => ?_
  exact congrArg x0 (funext fun a => Fin.ext (by match a with | ⟨0, _⟩ => rfl | ⟨1, _⟩ => rfl | ⟨2, _⟩ => rfl))

/-- The body's payload at (0, 0, l): the block's sum over the 50-axis at lane l, times 1/50. -/
theorem pay_apply (x0 : Vec Ideal S1x50x6000 .f32) (p q : Fin 1) (l : Fin 6000) :
    k0_pay1 (F := Ideal) x0 (ix3 p q l) = (∑ s : Fin 50, x0 (ix3 p s l)) * ((1 / 50 : ℝ) : EReal) := by
  unfold k0_pay1
  rw [mulf_apply, broadcast_apply, inv50, shapeCast_self]
  congr 1
  refine (shapeCast_addUnit_apply ![1, 6000] _ shapeCasts_S1x6000_S1x1x6000 (ix3 p q l)).trans ?_
  have e : (fun a : Fin 2 => (ix3 p q l : S1x1x6000.Idx) a.succ) = ix2 q l := by
    funext a; match a with | ⟨0, _⟩ => rfl | ⟨1, _⟩ => rfl
  rw [e]
  have hp : q = p := Subsingleton.elim _ _
  subst hp
  exact laneSum x0 rfl q l

theorem zeros3 : (![0, 0, 0] : Fin 3 → Nat) = fun _ => 0 := funext fun a => by fin_cases a <;> rfl

/-- The array the output ends holding: at (b, 0, l) the sum over the 50-axis of the input at (b, ·, l), times 1/50. -/
abbrev meanArr (A : S32x50x6000.Idx → EReal) : S32x1x6000.Idx → EReal :=
  fun i => (∑ s : Fin 50, A (ix3 (i 0) s (i 2))) * ((1 / 50 : ℝ) : EReal)

/-- The printed index maps over the grid: point t takes input block (t, 0, 0) and writes output block (t, 0, 0). -/
theorem idx_facts0 : ∀ t : Fin cfg0.N, win0_0.index t (0 : Fin 3) = t.val
    ∧ win0_0.index t (1 : Fin 3) = 0 ∧ win0_0.index t (2 : Fin 3) = 0
    ∧ win0_1.index t (0 : Fin 3) = t.val
    ∧ win0_1.index t (1 : Fin 3) = 0 ∧ win0_1.index t (2 : Fin 3) = 0 :=
  (by decide +kernel : ∀ t : Fin grid0.N, _)

/-- What point t writes back is block t of the mean array of the input as the region finds it. -/
theorem flushed_eq0 (c : Dev nD) (t : Fin cfg0.N) :
    (dat0 (F := Ideal) V c).flushed 1 t = ((cfg0.win 1).blk t).view.read (Elt Ideal) (meanArr (V c main_v0)) := by
  show (cfg0.win 1).cut (grid0.coords t) ((dat0 (F := Ideal) V c).after 1 t) = _
  rw [after0_1]
  unfold out0_1
  rw [View.canon_unit_zero zeros3]
  simp only [View.ld_unit_zero (S := S1x50x6000) zeros3]
  obtain ⟨e0, e1, e2, e3, e4, e5⟩ := idx_facts0 t
  funext j
  have h0 : (j 0).val < 1 := (j 0).isLt
  have h1 : (j 1).val < 1 := (j 1).isLt
  have h2 : (j 2).val < 6000 := (j 2).isLt
  have hj : (cfg0.win 1).xinj (grid0.coords t) j = ix3 ⟨(j 0).val, h0⟩ ⟨(j 1).val, h1⟩ ⟨(j 2).val, h2⟩ := by
    funext a; match a with | ⟨0, _⟩ => rfl | ⟨1, _⟩ => rfl | ⟨2, _⟩ => rfl
  show k0_pay1 (F := Ideal) (iblk0 V c 0 t) ((cfg0.win 1).xinj (grid0.coords t) j) = _
  rw [hj, pay_apply]
  have key : ∀ A : S32x50x6000.Idx → EReal,
      (∑ s : Fin 50, A (((cfg0.win 0).blk t).view.emb (ix3 ⟨(j 0).val, h0⟩ s ⟨(j 2).val, h2⟩))) * ((1 / 50 : ℝ) : EReal)
        = meanArr A (((cfg0.win 1).blk t).view.emb j) := by
    intro A
    show _ * _ = (∑ s : Fin 50, A (ix3 ((((cfg0.win 1).blk t).view.emb j) 0) s ((((cfg0.win 1).blk t).view.emb j) 2))) * _
    congr 1
    refine Finset.sum_congr rfl fun s _ => congrArg A ?_
    funext a; apply Fin.ext
    match a with
    | ⟨0, _⟩ => show win0_0.index t (0 : Fin 3) * 1 + 1 * (j 0).val = win0_1.index t (0 : Fin 3) * 1 + 1 * (j 0).val; omega
    | ⟨1, _⟩ => show win0_0.index t (1 : Fin 3) * 50 + 1 * s.val = s.val; omega
    | ⟨2, _⟩ => show win0_0.index t (2 : Fin 3) * 6000 + 1 * (j 2).val = win0_1.index t (2 : Fin 3) * 6000 + 1 * (j 2).val; omega
  exact key (V c main_v0)

/-- An index of the output array is in point t's block iff each coordinate is in the block's range on its axis. -/
theorem mem_blk0 (t : Fin cfg0.N) (i : S32x1x6000.Idx) :
    i ∈ ((cfg0.win 1).blk t).view.set ↔ ∀ a : Fin 3, win0_1.index t a * S1x1x6000.size a ≤ (i a).val
      ∧ (i a).val < win0_1.index t a * S1x1x6000.size a + S1x1x6000.size a := by
  show i ∈ ((View.whole main_v1).slice (win0_1.rect t)).set ↔ _
  rw [View.set_slice_whole, Rect.mem_set_unit]
  exact Iff.rfl

/-- Every index (b, 0, l) of the output array is in the block of point b. -/
theorem cover0 (i : S32x1x6000.Idx) :
    ∃ t : Fin cfg0.N, (cfg0.win 1).flush t = true ∧ i ∈ ((cfg0.win 1).blk t).view.set := by
  have hi0 : (i 0).val < 32 := (i 0).isLt
  have hi1 : (i 1).val < 1 := (i 1).isLt
  have hi2 : (i 2).val < 6000 := (i 2).isLt
  have hN : cfg0.N = 32 := N_0
  obtain ⟨t, ht⟩ : ∃ t : Fin cfg0.N, t.val = (i 0).val := ⟨⟨(i 0).val, by rw [hN]; exact hi0⟩, rfl⟩
  obtain ⟨e0, e1, e2, e3, e4, e5⟩ := idx_facts0 t
  refine ⟨t, flush0_1 t, ?_⟩
  rw [mem_blk0]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 6000 ≤ (i 2).val ∧ (i 2).val < win0_1.index t (2 : Fin 3) * 6000 + 6000; omega

/-- The output array after the region: the mean array of the input as the region finds it. -/
theorem final0 (c : Dev nD) : (dat0 (F := Ideal) V c).arrAt 1 cfg0.N = meanArr (V c main_v0) :=
  (dat0 (F := Ideal) V c).arrAt_eq_of_cover 1 (meanArr (V c main_v0)) (fun t _ => flushed_eq0 V c t) cover0

/-- The input as the region finds it is the row-major recast of x: at (b, s, 3n + f) it is x at (b, s, n, f). -/
theorem input_apply (x : Cert.Spec.FArr Ideal S32x50x2000x3) (b : Fin 32) (s : Fin 50) (n : Fin 2000) (f : Fin 3)
    (l : Fin 6000) (hl : l.val = n.val * 3 + f.val) :
    shapeCast S32x50x6000 x shapeCasts_S32x50x2000x3_S32x50x6000 (ix3 b s l) = x (ix4 b s n f) := by
  refine shapeCast_apply x _ (ix3 b s l) (ix4 b s n f) ?_
  rw [Shape.rowMajor_val_four, Shape.rowMajor_val_three]
  show ((b.val * 50 + s.val) * 2000 + n.val) * 3 + f.val = (b.val * 50 + s.val) * 6000 + l.val
  omega

/-- The reference's sum over the 50 steps at (b, n, f), from the initial value 0: 0 + Σ = Σ. -/
theorem stepSum_apply (x : Cert.Spec.FArr Ideal Cert.ReferenceIdeal.S32x50x2000x3)
    (h' : Cert.ReferenceIdeal.S32x50x2000x3.ReducesTo [1] Cert.ReferenceIdeal.S32x2000x3)
    (hu : 0 < Cert.ReferenceIdeal.S_.numel) (b : Fin 32) (n : Fin 2000) (f : Fin 3) :
    Host.reduceAdd (F := Ideal) x (constant (F := Ideal) Cert.ReferenceIdeal.S_ .f32 0x00000000#32) h' hu (ix3 b n f)
      = ∑ s : Fin 50, x (ix4 b s n f) := by
  simp only [Host.reduceAdd, Ideal.hostReduceAdd_def]
  rw [Ideal.hostReduceAdd_single h' (by decide)]
  rw [constant_apply, Ideal.ofBits_zero_f32, zero_add]
  refine Finset.sum_congr rfl fun s _ => ?_
  exact congrArg x (funext fun a => Fin.ext (by match a with | ⟨0, _⟩ => rfl | ⟨1, _⟩ => rfl | ⟨2, _⟩ => rfl | ⟨3, _⟩ => rfl))

/-- The reference's node mean at row 2000·b + n and column f: the sum over the steps divided by 50, which on every
    extended real is the sum times 1/50. -/
theorem nodeMean_apply (x : Cert.Spec.FArr Ideal S32x50x2000x3) (b : Fin 32) (n : Fin 2000) (f : Fin 3) (r : Fin 64000)
    (hr : r.val = 2000 * b.val + n.val) :
    Cert.Spec.nodeMean x (ix2 r f) = (∑ s : Fin 50, x (ix4 b s n f)) * ((1 / 50 : ℝ) : EReal) := by
  unfold Cert.Spec.nodeMean
  refine (shapeCast_apply _ _ (ix2 r f) (ix3 b n f) ?_).trans ?_
  · rw [Shape.rowMajor_val_three, Shape.rowMajor_val_two]
    show (b.val * 2000 + n.val) * 3 + f.val = r.val * 3 + f.val
    omega
  show Ideal.div (Host.reduceAdd (F := Ideal) x _ _ _ (ix3 b n f)) (Ideal.ofBits .f32 0x42480000#32) = _
  rw [stepSum_apply, fifty, Ideal.div_coe (by norm_num : (50 : ℝ) ≠ 0)]

/-- REGION 0. The output array, recast to one row per node, is the reference's node mean of x. -/
theorem region0_value (c : Dev nD) (x : Cert.Spec.FArr Ideal S32x50x2000x3)
    (hx : V c main_v0 = shapeCast S32x50x6000 x shapeCasts_S32x50x2000x3_S32x50x6000) :
    shapeCast S64000x3 ((dat0 (F := Ideal) V c).arrAt 1 cfg0.N) shapeCasts_S32x1x6000_S64000x3 = Cert.Spec.nodeMean x := by
  rw [final0, hx]
  funext i
  obtain ⟨r, f, rfl⟩ : ∃ (r : Fin 64000) (f : Fin 3), i = ix2 r f := ⟨i 0, i 1, eq_ix2 i⟩
  have hb : r.val / 2000 < 32 := by have := r.isLt; omega
  have hn : r.val % 2000 < 2000 := Nat.mod_lt _ (by norm_num)
  have hl : (r.val % 2000) * 3 + f.val < 6000 := by have := f.isLt; omega
  rw [nodeMean_apply x ⟨r.val / 2000, hb⟩ ⟨r.val % 2000, hn⟩ f r
    (by show r.val = 2000 * (r.val / 2000) + r.val % 2000; omega)]
  refine (shapeCast_apply _ _ (ix2 r f) (ix3 ⟨r.val / 2000, hb⟩ ⟨0, Nat.one_pos⟩ ⟨(r.val % 2000) * 3 + f.val, hl⟩) ?_).trans ?_
  · rw [Shape.rowMajor_val_three, Shape.rowMajor_val_two]
    show ((r.val / 2000) * 1 + 0) * 6000 + ((r.val % 2000) * 3 + f.val) = r.val * 3 + f.val
    omega
  show (∑ s : Fin 50, shapeCast S32x50x6000 x shapeCasts_S32x50x2000x3_S32x50x6000
      (ix3 ⟨r.val / 2000, hb⟩ s ⟨(r.val % 2000) * 3 + f.val, hl⟩)) * _ = _
  congr 1
  refine Finset.sum_congr rfl fun s _ => ?_
  exact input_apply x _ s _ f _ rfl

end Cert.KernelIdeal.RegionValue
end
-- ==== Proof.Region1.lean ====
/-
  REGION 1, the first feature transform, as a value: after its 8 grid points the [64000,64] output array holds, at every
  index, the specification's product of the [64000,3] array the region reads with the [3,64] weight array.

  Grid point t takes rows 8000t … 8000t + 7999 of the [64000,3] array (window 0), the whole [3,64] weight array
  (window 1, block index (0, 0) at every point) and writes rows 8000t … 8000t + 7999 of the output (window 2).  At the
  ideal values a change of float format is the identity and the product into a zero accumulator is a plain sum, so entry
  (r, col) of what point t computes is  Σ_k x0[r, k] · x1[k, col]  over the contracted axis, x0 and x1 the two blocks.
  The specification at (row, col) is  Σ_k a[row, k] · w[k, col].  With row = 8000t + r the two sums agree term by term,
  because x0[r, k] is a[8000t + r, k] and x1 is w.  The 8 row blocks tile the output array, so the array ends holding
  the specification everywhere.

  In order: the two sums read at an index (`pay_apply_r1`, `spec_apply_r1`), the printed index maps over the grid
  (`idx_facts_r1`, `idx_onto_r1`), the two input blocks read at an index (`blk0_apply_r1`, `blk1_apply_r1`), one
  point's result (`point_eq_r1`, `flushed_eq_r1`), the cover (`mem_blk_r1`, `cover_r1`), the region's value.
-/
import proofs.«408987_j65163243815592_3_alg».proof.Proof.Gen.KernelIdeal.Frame
import proofs.«408987_j65163243815592_3_alg».proof.Proof.Spec
import Idealize.ShloMosaic.Lib.Pipeline.Value
import Idealize.ShloMosaic.Lib.ValueIdx
import Idealize.ShloMosaic.PureOps.Ideal.Laws

set_option maxRecDepth 16384
noncomputable section
namespace Cert.KernelIdeal.RegionValue
open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-- The body's loads and its store start at offset zero on both axes. -/
theorem zero_off_r1 : (![0, 0] : Fin 2 → Nat) = fun _ => 0 := funext fun a => by fin_cases a <;> rfl

/-! ## The block product at an index -/

/-- The block product's dimension numbers: axis 1 of the left operand is contracted with axis 0 of the right. -/
abbrev kdot_r1 := dot_S8000x3_S3x64_S8000x64_1_0_0_1_n_n

/-- The left operand is read at the output's row … -/
theorem kdot_lhs0_r1 (j : S8000x64.Idx) (q : kdot_r1.contr.Idx) : (kdot_r1.lhsIdx j q 0).val = (j 0).val := by
  unfold DotDims.lhsIdx
  rw [dif_neg (show ¬(0 : Fin S8000x3.rank) ∈ kdot_r1.lhsBatch by decide), dif_pos (show (0 : Fin S8000x3.rank) ∈ kdot_r1.lhsNonContracting by decide)]
  rfl
/-- … and at the contraction index; -/
theorem kdot_lhs1_r1 (j : S8000x64.Idx) (q : kdot_r1.contr.Idx) : (kdot_r1.lhsIdx j q 1).val = (q ⟨0, by decide⟩).val :=
  kdot_r1.lhsIdx_val_of_single rfl j q
/-- the right operand at the contraction index … -/
theorem kdot_rhs0_r1 (j : S8000x64.Idx) (q : kdot_r1.contr.Idx) : (kdot_r1.rhsIdx j q 0).val = (q ⟨0, by decide⟩).val :=
  kdot_r1.rhsIdx_val_of_single rfl j q
/-- … and at the output's column. -/
theorem kdot_rhs1_r1 (j : S8000x64.Idx) (q : kdot_r1.contr.Idx) : (kdot_r1.rhsIdx j q 1).val = (j 1).val := by
  unfold DotDims.rhsIdx
  rw [dif_neg (show ¬(1 : Fin S3x64.rank) ∈ kdot_r1.rhsBatch by decide), dif_pos (show (1 : Fin S3x64.rank) ∈ kdot_r1.rhsNonContracting by decide)]
  rfl

/-- WHAT THE BODY COMPUTES, at entry (r, col) of its [8000,64] result: Σ_k x0[r, k] · x1[k, col].  The cast to the same
    shape and the two format changes are the identity at the ideal values, the accumulator is zero, and the sum over
    the one-axis contraction index is re-indexed by that axis's coordinate. -/
theorem pay_apply_r1 (x0 : Vec Ideal S8000x3 .f32) (x1 : Vec Ideal S3x64 .f32) (r : Fin 8000) (cl : Fin 64) :
    k1_pay1 x0 x1 (ix2 r cl) = ∑ k : Fin 3, x0 (ix2 r k) * x1 (ix2 k cl) := by
  unfold k1_pay1
  simp only [shapeCast_self, matmul]
  rw [Ideal.matmul_constant_zero_apply, ← Equiv.sum_comp (contrEquiv1 kdot_r1 3 rfl rfl).symm]
  refine Finset.sum_congr rfl fun k _ => ?_
  have hk := contrEquiv1_symm_val kdot_r1 3 rfl rfl k
  have el : kdot_r1.lhsIdx (ix2 r cl) ((contrEquiv1 kdot_r1 3 rfl rfl).symm k) = ix2 r k := funext fun a => Fin.ext (by
    match a with
    | ⟨0, _⟩ => exact kdot_lhs0_r1 _ _
    | ⟨1, _⟩ => exact (kdot_lhs1_r1 _ _).trans hk)
  have er : kdot_r1.rhsIdx (ix2 r cl) ((contrEquiv1 kdot_r1 3 rfl rfl).symm k) = ix2 k cl := funext fun a => Fin.ext (by
    match a with
    | ⟨0, _⟩ => exact (kdot_rhs0_r1 _ _).trans hk
    | ⟨1, _⟩ => exact kdot_rhs1_r1 _ _)
  simp only [truncf_apply]
  rw [el, er]

/-! ## The specification at an index -/

/-- The specification's dimension numbers: the same contraction, over whole arrays. -/
abbrev sdot_r1 := Cert.ReferenceIdeal.dot_S64000x3_S3x64_S64000x64_1_0_0_1_n_n

/-- The left operand is read at the output's row … -/
theorem sdot_lhs0_r1 (j : S64000x64.Idx) (q : sdot_r1.contr.Idx) : (sdot_r1.lhsIdx j q 0).val = (j 0).val := by
  unfold DotDims.lhsIdx
  rw [dif_neg (show ¬(0 : Fin S64000x3.rank) ∈ sdot_r1.lhsBatch by decide), dif_pos (show (0 : Fin S64000x3.rank) ∈ sdot_r1.lhsNonContracting by decide)]
  rfl
/-- … and at the contraction index; -/
theorem sdot_lhs1_r1 (j : S64000x64.Idx) (q : sdot_r1.contr.Idx) : (sdot_r1.lhsIdx j q 1).val = (q ⟨0, by decide⟩).val :=
  sdot_r1.lhsIdx_val_of_single rfl j q
/-- the right operand at the contraction index … -/
theorem sdot_rhs0_r1 (j : S64000x64.Idx) (q : sdot_r1.contr.Idx) : (sdot_r1.rhsIdx j q 0).val = (q ⟨0, by decide⟩).val :=
  sdot_r1.rhsIdx_val_of_single rfl j q
/-- … and at the output's column. -/
theorem sdot_rhs1_r1 (j : S64000x64.Idx) (q : sdot_r1.contr.Idx) : (sdot_r1.rhsIdx j q 1).val = (j 1).val := by
  unfold DotDims.rhsIdx
  rw [dif_neg (show ¬(1 : Fin S3x64.rank) ∈ sdot_r1.rhsBatch by decide), dif_pos (show (1 : Fin S3x64.rank) ∈ sdot_r1.rhsNonContracting by decide)]
  rfl

/-- THE SPECIFICATION at (row, col): Σ_k a[row, k] · w[k, col]. -/
theorem spec_apply_r1 (a : Cert.Spec.FArr Ideal S64000x3) (w : Cert.Spec.FArr Ideal S3x64) (r : Fin 64000) (cl : Fin 64) :
    Cert.Spec.transform1 a w (ix2 r cl) = ∑ k : Fin 3, a (ix2 r k) * w (ix2 k cl) := by
  simp only [Cert.Spec.transform1, Host.dotGeneral]
  rw [Ideal.dotGeneral_apply, ← Equiv.sum_comp (contrEquiv1 sdot_r1 3 rfl rfl).symm]
  refine Finset.sum_congr rfl fun k _ => ?_
  have hk := contrEquiv1_symm_val sdot_r1 3 rfl rfl k
  have el : sdot_r1.lhsIdx (ix2 r cl) ((contrEquiv1 sdot_r1 3 rfl rfl).symm k) = ix2 r k := funext fun a => Fin.ext (by
    match a with
    | ⟨0, _⟩ => exact sdot_lhs0_r1 _ _
    | ⟨1, _⟩ => exact (sdot_lhs1_r1 _ _).trans hk)
  have er : sdot_r1.rhsIdx (ix2 r cl) ((contrEquiv1 sdot_r1 3 rfl rfl).symm k) = ix2 k cl := funext fun a => Fin.ext (by
    match a with
    | ⟨0, _⟩ => exact (sdot_rhs0_r1 _ _).trans hk
    | ⟨1, _⟩ => exact sdot_rhs1_r1 _ _)
  rw [el, er]

/-! ## The index maps over the grid -/

/-- At every grid point: the left input's row block index is the output's and its column block index is 0; the weight
    array's block index is (0, 0); the output's column block index is 0 and its row block index is at most 7. -/
theorem idx_facts_r1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 7 :=
  (by decide +kernel : ∀ t : Fin grid1.N, _)

/-- Every one of the 8 row blocks of the output is some grid point's. -/
theorem idx_onto_r1 : ∀ q0 : Fin 8, ∃ t : Fin cfg1.N, win1_2.index t = ![q0.val, 0] :=
  (by decide +kernel : ∀ q0 : Fin 8, ∃ t : Fin grid1.N, win1_2.index t = ![q0.val, 0])

/-! ## The input blocks at an index -/

/-- Entry (r, k) of the left input's block at point t is the array at row (block index)·8000 + r, column k. -/
theorem blk0_apply_r1 (c : Dev nD) (t : Fin cfg1.N) (r : Fin 8000) (k : Fin 3) (R : Fin 64000)
    (hR : R.val = win1_2.index t (0 : Fin 2) * 8000 + r.val) :
    (iblk1 V c 0 t : Vec Ideal S8000x3 .f32) (ix2 r k) = (V c main_v2 : S64000x3.Idx → Elt Ideal .f32) (ix2 R k) := by
  obtain ⟨e0, e1, e2, e3, e4, e5⟩ := idx_facts_r1 t
  unfold iblk1
  rw [View.read_apply]
  show V c main_v2 _ = V c main_v2 _
  congr 1
  funext a
  apply Fin.ext
  match a with
  | ⟨0, _⟩ => show win1_0.index t (0 : Fin 2) * 8000 + 1 * r.val = R.val; omega
  | ⟨1, _⟩ => show win1_0.index t (1 : Fin 2) * 3 + 1 * k.val = k.val; omega

/-- The weight array's block at every point is the whole array. -/
theorem blk1_apply_r1 (c : Dev nD) (t : Fin cfg1.N) (k : Fin 3) (cl : Fin 64) :
    (iblk1 V c 1 t : Vec Ideal S3x64 .f32) (ix2 k cl) = (V c main_arg2 : S3x64.Idx → Elt Ideal .f32) (ix2 k cl) := by
  obtain ⟨e0, e1, e2, e3, e4, e5⟩ := idx_facts_r1 t
  unfold iblk1
  rw [View.read_apply]
  show V c main_arg2 _ = V c main_arg2 _
  congr 1
  funext a
  apply Fin.ext
  match a with
  | ⟨0, _⟩ => show win1_1.index t (0 : Fin 2) * 3 + 1 * k.val = k.val; omega
  | ⟨1, _⟩ => show win1_1.index t (1 : Fin 2) * 64 + 1 * cl.val = cl.val; omega

/-! ## What one grid point writes back -/

/-- Entry (r, col) of what point t computes is the specification at row R = (block index)·8000 + r, column col: both
    are the sum over k of the array at (R, k) times the weights at (k, col). -/
theorem point_eq_r1 (c : Dev nD) (t : Fin cfg1.N) (r : Fin 8000) (cl : Fin 64) (R : Fin 64000)
    (hR : R.val = win1_2.index t (0 : Fin 2) * 8000 + r.val) :
    k1_pay1 (iblk1 V c 0 t) (iblk1 V c 1 t) (ix2 r cl) = Cert.Spec.transform1 (V c main_v2) (V c main_arg2) (ix2 R cl) := by
  rw [pay_apply_r1, spec_apply_r1]
  refine Finset.sum_congr rfl fun k _ => ?_
  rw [blk0_apply_r1 V c t r k R hR, blk1_apply_r1 V c t k cl]

/-- WHAT POINT t WRITES BACK is block t of the specification of the arrays as the region finds them: the body's one
    store fills the staging buffer with the block product, and the output's block at point t sits at rows
    (block index)·8000 onwards, all 64 columns. -/
theorem flushed_eq_r1 (c : Dev nD) (t : Fin cfg1.N) :
    (dat1 (F := Ideal) V c).flushed 2 t = ((cfg1.win 2).blk t).view.read (Elt Ideal) (Cert.Spec.transform1 (V c main_v2) (V c main_arg2)) := by
  show (cfg1.win 2).cut (grid1.coords t) ((dat1 V c).after 2 t) = _
  rw [after1_2]
  unfold out1_2
  rw [View.canon_unit_zero zero_off_r1]
  simp only [View.ld_unit_zero (S := S8000x3) zero_off_r1, View.ld_unit_zero (S := S3x64) zero_off_r1]
  obtain ⟨e0, e1, e2, e3, e4, e5⟩ := idx_facts_r1 t
  funext j
  show k1_pay1 (iblk1 V c 0 t) (iblk1 V c 1 t) j = Cert.Spec.transform1 (V c main_v2) (V c main_arg2) (((cfg1.win 2).blk t).view.emb j)
  obtain ⟨r, cl, rfl⟩ : ∃ (r : Fin 8000) (cl : Fin 64), j = ix2 r cl := ⟨j 0, j 1, eq_ix2 (n0 := 8000) (n1 := 64) j⟩
  have he : ((cfg1.win 2).blk t).view.emb (ix2 r cl) = ix2 (⟨win1_2.index t (0 : Fin 2) * 8000 + r.val, by have := r.isLt; omega⟩ : Fin 64000) cl := by
    funext a; apply Fin.ext
    match a with
    | ⟨0, _⟩ => show win1_2.index t (0 : Fin 2) * 8000 + 1 * r.val = win1_2.index t (0 : Fin 2) * 8000 + r.val; omega
    | ⟨1, _⟩ => show win1_2.index t (1 : Fin 2) * 64 + 1 * cl.val = cl.val; omega
  rw [he]
  exact point_eq_r1 V c t r cl _ rfl

/-! ## The blocks cover the array -/

/-- An index of the output array is in point t's block iff each coordinate is in the block's range on its axis. -/
theorem mem_blk_r1 (t : Fin cfg1.N) (i : S64000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v33).slice (win1_2.rect t)).set ↔ _
  rw [View.set_slice_whole, Rect.mem_set_unit]
  exact Iff.rfl

/-- Every index (row, col) of the output array is in the block of the point whose row block index is row / 8000. -/
theorem cover_r1 (i : S64000x64.Idx) :
    ∃ t : Fin cfg1.N, (cfg1.win 2).flush t = true ∧ i ∈ ((cfg1.win 2).blk t).view.set := by
  have hi0 : (i 0).val < 64000 := (i 0).isLt
  have hi1 : (i 1).val < 64 := (i 1).isLt
  obtain ⟨t, ht⟩ := idx_onto_r1 ⟨(i 0).val / 8000, by omega⟩
  have q0 : win1_2.index t (0 : Fin 2) = (i 0).val / 8000 := congrFun ht 0
  have q1 : win1_2.index t (1 : Fin 2) = 0 := congrFun ht 1
  refine ⟨t, flush1_2 t, ?_⟩
  rw [mem_blk_r1]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 64 ≤ (i 1).val ∧ (i 1).val < win1_2.index t (1 : Fin 2) * 64 + 64; omega

/-! ## The region's value -/

/-- THE OUTPUT ARRAY after the region's 8 points is the specification of the two arrays the region reads: every point
    writes back its block of it, and the blocks cover the array. -/
theorem region1_value (c : Dev nD) :
    (dat1 (F := Ideal) V c).arrAt 2 cfg1.N = Cert.Spec.transform1 (V c main_v2) (V c main_arg2) :=
  (dat1 (F := Ideal) V c).arrAt_eq_of_cover 2 (Cert.Spec.transform1 (V c main_v2) (V c main_arg2))
    (fun t _ => flushed_eq_r1 V c t) cover_r1

end Cert.KernelIdeal.RegionValue
end
-- ==== Proof.Region2.lean ====
/-
  REGION 2, the second feature transform, as a value: after its 8 grid points the [64000,64] output array holds, at every
  index, the specification's product of the [64000,64] array the region reads with the [64,64] weight array.

  Grid point t takes rows 8000t … 8000t + 7999 of the [64000,64] array (window 0), the whole [64,64] weight array
  (window 1, block index (0, 0) at every point) and writes rows 8000t … 8000t + 7999 of the output (window 2).  At the
  ideal values a change of float format is the identity and the product into a zero accumulator is a plain sum, so entry
  (r, col) of what point t computes is  Σ_k x0[r, k] · x1[k, col]  over the contracted axis, x0 and x1 the two blocks.
  The specification at (row, col) is  Σ_k a[row, k] · w[k, col].  With row = 8000t + r the two sums agree term by term,
  because x0[r, k] is a[8000t + r, k] and x1 is w.  The 8 row blocks tile the output array, so the array ends holding
  the specification everywhere.

  In order: the two sums read at an index (`pay_apply_r2`, `spec_apply_r2`), the printed index maps over the grid
  (`idx_facts_r2`, `idx_onto_r2`), the two input blocks read at an index (`blk0_apply_r2`, `blk1_apply_r2`), one
  point's result (`point_eq_r2`, `flushed_eq_r2`), the cover (`mem_blk_r2`, `cover_r2`), the region's value.
-/
import proofs.«408987_j65163243815592_3_alg».proof.Proof.Gen.KernelIdeal.Frame
import proofs.«408987_j65163243815592_3_alg».proof.Proof.Spec
import Idealize.ShloMosaic.Lib.Pipeline.Value
import Idealize.ShloMosaic.Lib.ValueIdx
import Idealize.ShloMosaic.PureOps.Ideal.Laws

set_option maxRecDepth 16384
noncomputable section
namespace Cert.KernelIdeal.RegionValue
open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-- The body's loads and its store start at offset zero on both axes. -/
theorem zero_off_r2 : (![0, 0] : Fin 2 → Nat) = fun _ => 0 := funext fun a => by fin_cases a <;> rfl

/-! ## The block product at an index -/

/-- The block product's dimension numbers: axis 1 of the left operand is contracted with axis 0 of the right. -/
abbrev kdot_r2 := dot_S8000x64_S64x64_S8000x64_1_0_0_1_n_n

/-- The left operand is read at the output's row … -/
theorem kdot_lhs0_r2 (j : S8000x64.Idx) (q : kdot_r2.contr.Idx) : (kdot_r2.lhsIdx j q 0).val = (j 0).val := by
  unfold DotDims.lhsIdx
  rw [dif_neg (show ¬(0 : Fin S8000x64.rank) ∈ kdot_r2.lhsBatch by decide), dif_pos (show (0 : Fin S8000x64.rank) ∈ kdot_r2.lhsNonContracting by decide)]
  rfl
/-- … and at the contraction index; -/
theorem kdot_lhs1_r2 (j : S8000x64.Idx) (q : kdot_r2.contr.Idx) : (kdot_r2.lhsIdx j q 1).val = (q ⟨0, by decide⟩).val :=
  kdot_r2.lhsIdx_val_of_single rfl j q
/-- the right operand at the contraction index … -/
theorem kdot_rhs0_r2 (j : S8000x64.Idx) (q : kdot_r2.contr.Idx) : (kdot_r2.rhsIdx j q 0).val = (q ⟨0, by decide⟩).val :=
  kdot_r2.rhsIdx_val_of_single rfl j q
/-- … and at the output's column. -/
theorem kdot_rhs1_r2 (j : S8000x64.Idx) (q : kdot_r2.contr.Idx) : (kdot_r2.rhsIdx j q 1).val = (j 1).val := by
  unfold DotDims.rhsIdx
  rw [dif_neg (show ¬(1 : Fin S64x64.rank) ∈ kdot_r2.rhsBatch by decide), dif_pos (show (1 : Fin S64x64.rank) ∈ kdot_r2.rhsNonContracting by decide)]
  rfl

/-- WHAT THE BODY COMPUTES, at entry (r, col) of its [8000,64] result: Σ_k x0[r, k] · x1[k, col].  The cast to the same
    shape and the two format changes are the identity at the ideal values, the accumulator is zero, and the sum over
    the one-axis contraction index is re-indexed by that axis's coordinate. -/
theorem pay_apply_r2 (x0 : Vec Ideal S8000x64 .f32) (x1 : Vec Ideal S64x64 .f32) (r : Fin 8000) (cl : Fin 64) :
    k2_pay1 x0 x1 (ix2 r cl) = ∑ k : Fin 64, x0 (ix2 r k) * x1 (ix2 k cl) := by
  unfold k2_pay1
  simp only [shapeCast_self, matmul]
  rw [Ideal.matmul_constant_zero_apply, ← Equiv.sum_comp (contrEquiv1 kdot_r2 64 rfl rfl).symm]
  refine Finset.sum_congr rfl fun k _ => ?_
  have hk := contrEquiv1_symm_val kdot_r2 64 rfl rfl k
  have el : kdot_r2.lhsIdx (ix2 r cl) ((contrEquiv1 kdot_r2 64 rfl rfl).symm k) = ix2 r k := funext fun a => Fin.ext (by
    match a with
    | ⟨0, _⟩ => exact kdot_lhs0_r2 _ _
    | ⟨1, _⟩ => exact (kdot_lhs1_r2 _ _).trans hk)
  have er : kdot_r2.rhsIdx (ix2 r cl) ((contrEquiv1 kdot_r2 64 rfl rfl).symm k) = ix2 k cl := funext fun a => Fin.ext (by
    match a with
    | ⟨0, _⟩ => exact (kdot_rhs0_r2 _ _).trans hk
    | ⟨1, _⟩ => exact kdot_rhs1_r2 _ _)
  simp only [truncf_apply]
  rw [el, er]

/-! ## The specification at an index -/

/-- The specification's dimension numbers: the same contraction, over whole arrays. -/
abbrev sdot_r2 := Cert.ReferenceIdeal.dot_S64000x64_S64x64_S64000x64_1_0_0_1_n_n

/-- The left operand is read at the output's row … -/
theorem sdot_lhs0_r2 (j : S64000x64.Idx) (q : sdot_r2.contr.Idx) : (sdot_r2.lhsIdx j q 0).val = (j 0).val := by
  unfold DotDims.lhsIdx
  rw [dif_neg (show ¬(0 : Fin S64000x64.rank) ∈ sdot_r2.lhsBatch by decide), dif_pos (show (0 : Fin S64000x64.rank) ∈ sdot_r2.lhsNonContracting by decide)]
  rfl
/-- … and at the contraction index; -/
theorem sdot_lhs1_r2 (j : S64000x64.Idx) (q : sdot_r2.contr.Idx) : (sdot_r2.lhsIdx j q 1).val = (q ⟨0, by decide⟩).val :=
  sdot_r2.lhsIdx_val_of_single rfl j q
/-- the right operand at the contraction index … -/
theorem sdot_rhs0_r2 (j : S64000x64.Idx) (q : sdot_r2.contr.Idx) : (sdot_r2.rhsIdx j q 0).val = (q ⟨0, by decide⟩).val :=
  sdot_r2.rhsIdx_val_of_single rfl j q
/-- … and at the output's column. -/
theorem sdot_rhs1_r2 (j : S64000x64.Idx) (q : sdot_r2.contr.Idx) : (sdot_r2.rhsIdx j q 1).val = (j 1).val := by
  unfold DotDims.rhsIdx
  rw [dif_neg (show ¬(1 : Fin S64x64.rank) ∈ sdot_r2.rhsBatch by decide), dif_pos (show (1 : Fin S64x64.rank) ∈ sdot_r2.rhsNonContracting by decide)]
  rfl

/-- THE SPECIFICATION at (row, col): Σ_k a[row, k] · w[k, col]. -/
theorem spec_apply_r2 (a : Cert.Spec.FArr Ideal S64000x64) (w : Cert.Spec.FArr Ideal S64x64) (r : Fin 64000) (cl : Fin 64) :
    Cert.Spec.transform2 a w (ix2 r cl) = ∑ k : Fin 64, a (ix2 r k) * w (ix2 k cl) := by
  simp only [Cert.Spec.transform2, Host.dotGeneral]
  rw [Ideal.dotGeneral_apply, ← Equiv.sum_comp (contrEquiv1 sdot_r2 64 rfl rfl).symm]
  refine Finset.sum_congr rfl fun k _ => ?_
  have hk := contrEquiv1_symm_val sdot_r2 64 rfl rfl k
  have el : sdot_r2.lhsIdx (ix2 r cl) ((contrEquiv1 sdot_r2 64 rfl rfl).symm k) = ix2 r k := funext fun a => Fin.ext (by
    match a with
    | ⟨0, _⟩ => exact sdot_lhs0_r2 _ _
    | ⟨1, _⟩ => exact (sdot_lhs1_r2 _ _).trans hk)
  have er : sdot_r2.rhsIdx (ix2 r cl) ((contrEquiv1 sdot_r2 64 rfl rfl).symm k) = ix2 k cl := funext fun a => Fin.ext (by
    match a with
    | ⟨0, _⟩ => exact (sdot_rhs0_r2 _ _).trans hk
    | ⟨1, _⟩ => exact sdot_rhs1_r2 _ _)
  rw [el, er]

/-! ## The index maps over the grid -/

/-- At every grid point: the left input's row block index is the output's and its column block index is 0; the weight
    array's block index is (0, 0); the output's column block index is 0 and its row block index is at most 7. -/
theorem idx_facts_r2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 7 :=
  (by decide +kernel : ∀ t : Fin grid2.N, _)

/-- Every one of the 8 row blocks of the output is some grid point's. -/
theorem idx_onto_r2 : ∀ q0 : Fin 8, ∃ t : Fin cfg2.N, win2_2.index t = ![q0.val, 0] :=
  (by decide +kernel : ∀ q0 : Fin 8, ∃ t : Fin grid2.N, win2_2.index t = ![q0.val, 0])

/-! ## The input blocks at an index -/

/-- Entry (r, k) of the left input's block at point t is the array at row (block index)·8000 + r, column k. -/
theorem blk0_apply_r2 (c : Dev nD) (t : Fin cfg2.N) (r : Fin 8000) (k : Fin 64) (R : Fin 64000)
    (hR : R.val = win2_2.index t (0 : Fin 2) * 8000 + r.val) :
    (iblk2 V c 0 t : Vec Ideal S8000x64 .f32) (ix2 r k) = (V c main_v50 : S64000x64.Idx → Elt Ideal .f32) (ix2 R k) := by
  obtain ⟨e0, e1, e2, e3, e4, e5⟩ := idx_facts_r2 t
  unfold iblk2
  rw [View.read_apply]
  show V c main_v50 _ = V c main_v50 _
  congr 1
  funext a
  apply Fin.ext
  match a with
  | ⟨0, _⟩ => show win2_0.index t (0 : Fin 2) * 8000 + 1 * r.val = R.val; omega
  | ⟨1, _⟩ => show win2_0.index t (1 : Fin 2) * 64 + 1 * k.val = k.val; omega

/-- The weight array's block at every point is the whole array. -/
theorem blk1_apply_r2 (c : Dev nD) (t : Fin cfg2.N) (k : Fin 64) (cl : Fin 64) :
    (iblk2 V c 1 t : Vec Ideal S64x64 .f32) (ix2 k cl) = (V c main_arg4 : S64x64.Idx → Elt Ideal .f32) (ix2 k cl) := by
  obtain ⟨e0, e1, e2, e3, e4, e5⟩ := idx_facts_r2 t
  unfold iblk2
  rw [View.read_apply]
  show V c main_arg4 _ = V c main_arg4 _
  congr 1
  funext a
  apply Fin.ext
  match a with
  | ⟨0, _⟩ => show win2_1.index t (0 : Fin 2) * 64 + 1 * k.val = k.val; omega
  | ⟨1, _⟩ => show win2_1.index t (1 : Fin 2) * 64 + 1 * cl.val = cl.val; omega

/-! ## What one grid point writes back -/

/-- Entry (r, col) of what point t computes is the specification at row R = (block index)·8000 + r, column col: both
    are the sum over k of the array at (R, k) times the weights at (k, col). -/
theorem point_eq_r2 (c : Dev nD) (t : Fin cfg2.N) (r : Fin 8000) (cl : Fin 64) (R : Fin 64000)
    (hR : R.val = win2_2.index t (0 : Fin 2) * 8000 + r.val) :
    k2_pay1 (iblk2 V c 0 t) (iblk2 V c 1 t) (ix2 r cl) = Cert.Spec.transform2 (V c main_v50) (V c main_arg4) (ix2 R cl) := by
  rw [pay_apply_r2, spec_apply_r2]
  refine Finset.sum_congr rfl fun k _ => ?_
  rw [blk0_apply_r2 V c t r k R hR, blk1_apply_r2 V c t k cl]

/-- WHAT POINT t WRITES BACK is block t of the specification of the arrays as the region finds them: the body's one
    store fills the staging buffer with the block product, and the output's block at point t sits at rows
    (block index)·8000 onwards, all 64 columns. -/
theorem flushed_eq_r2 (c : Dev nD) (t : Fin cfg2.N) :
    (dat2 (F := Ideal) V c).flushed 2 t = ((cfg2.win 2).blk t).view.read (Elt Ideal) (Cert.Spec.transform2 (V c main_v50) (V c main_arg4)) := by
  show (cfg2.win 2).cut (grid2.coords t) ((dat2 V c).after 2 t) = _
  rw [after2_2]
  unfold out2_2
  rw [View.canon_unit_zero zero_off_r2]
  simp only [View.ld_unit_zero (S := S8000x64) zero_off_r2, View.ld_unit_zero (S := S64x64) zero_off_r2]
  obtain ⟨e0, e1, e2, e3, e4, e5⟩ := idx_facts_r2 t
  funext j
  show k2_pay1 (iblk2 V c 0 t) (iblk2 V c 1 t) j = Cert.Spec.transform2 (V c main_v50) (V c main_arg4) (((cfg2.win 2).blk t).view.emb j)
  obtain ⟨r, cl, rfl⟩ : ∃ (r : Fin 8000) (cl : Fin 64), j = ix2 r cl := ⟨j 0, j 1, eq_ix2 (n0 := 8000) (n1 := 64) j⟩
  have he : ((cfg2.win 2).blk t).view.emb (ix2 r cl) = ix2 (⟨win2_2.index t (0 : Fin 2) * 8000 + r.val, by have := r.isLt; omega⟩ : Fin 64000) cl := by
    funext a; apply Fin.ext
    match a with
    | ⟨0, _⟩ => show win2_2.index t (0 : Fin 2) * 8000 + 1 * r.val = win2_2.index t (0 : Fin 2) * 8000 + r.val; omega
    | ⟨1, _⟩ => show win2_2.index t (1 : Fin 2) * 64 + 1 * cl.val = cl.val; omega
  rw [he]
  exact point_eq_r2 V c t r cl _ rfl

/-! ## The blocks cover the array -/

/-- An index of the output array is in point t's block iff each coordinate is in the block's range on its axis. -/
theorem mem_blk_r2 (t : Fin cfg2.N) (i : S64000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole main_v51).slice (win2_2.rect t)).set ↔ _
  rw [View.set_slice_whole, Rect.mem_set_unit]
  exact Iff.rfl

/-- Every index (row, col) of the output array is in the block of the point whose row block index is row / 8000. -/
theorem cover_r2 (i : S64000x64.Idx) :
    ∃ t : Fin cfg2.N, (cfg2.win 2).flush t = true ∧ i ∈ ((cfg2.win 2).blk t).view.set := by
  have hi0 : (i 0).val < 64000 := (i 0).isLt
  have hi1 : (i 1).val < 64 := (i 1).isLt
  obtain ⟨t, ht⟩ := idx_onto_r2 ⟨(i 0).val / 8000, by omega⟩
  have q0 : win2_2.index t (0 : Fin 2) = (i 0).val / 8000 := congrFun ht 0
  have q1 : win2_2.index t (1 : Fin 2) = 0 := congrFun ht 1
  refine ⟨t, flush2_2 t, ?_⟩
  rw [mem_blk_r2]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 64 ≤ (i 1).val ∧ (i 1).val < win2_2.index t (1 : Fin 2) * 64 + 64; omega

/-! ## The region's value -/

/-- THE OUTPUT ARRAY after the region's 8 points is the specification of the two arrays the region reads: every point
    writes back its block of it, and the blocks cover the array. -/
theorem region2_value (c : Dev nD) :
    (dat2 (F := Ideal) V c).arrAt 2 cfg2.N = Cert.Spec.transform2 (V c main_v50) (V c main_arg4) :=
  (dat2 (F := Ideal) V c).arrAt_eq_of_cover 2 (Cert.Spec.transform2 (V c main_v50) (V c main_arg4))
    (fun t _ => flushed_eq_r2 V c t) cover_r2

end Cert.KernelIdeal.RegionValue
end
-- ==== Proof.Region3.lean ====
/-
  REGION 3, the pooling head, read as one function of the arrays the region finds.

  The region takes the [32, 2000, 64] node features in blocks of 8 graphs, the whole [64, 2] weights and the
  whole [1, 2] bias at each of its 4 grid points, and writes blocks of 8 rows of the [32, 2] result.  At a point the
  body stores, at row p and column j of its block,

      Σ_{d < 64} ((Σ_{n < 2000} x[p, n, d]) · (1/2000)) · w[d, j]  +  b[0, j],

  x the block of node features, w the weights, b the bias row.  The specification's pooling head at graph g and
  column j is

      Σ_{d < 64} ((0 + Σ_{n < 2000} y[g, n, d]) / 2000) · w[d, j]  +  b[j],

  y the [32, 2000, 64] recast of the [64000, 64] features.  Block t holds the graphs 8t .. 8t+7, so with g = 8t + p the
  two sums run over the same entries; s · (1/2000) = s / 2000 on every extended real, 0 + s = s, and the bias recast
  to [1, 2] and the bias broadcast through [1, 2] to [32, 2] both read entry j.  The 4 blocks tile the 32 rows, so the
  result array is the specification's function everywhere.
-/
import proofs.«408987_j65163243815592_3_alg».proof.Proof.Gen.KernelIdeal.Frame
import proofs.«408987_j65163243815592_3_alg».proof.Proof.Spec
import Idealize.ShloMosaic.Lib.Pipeline.Value
import Idealize.ShloMosaic.Lib.ValueIdx
import Idealize.ShloMosaic.PureOps.Ideal.Laws

set_option maxRecDepth 16384
noncomputable section

/-! ## The specification's pooling head at an index -/

namespace Cert.PoolHeadRead
open Idealize.ShloMosaic Idealize.ShloMosaic.TcCoe Idealize.ShloMosaic.ValueIdx
open Cert.ReferenceIdeal Cert.ReferenceIdeal.Gen

/-- The divisor's bit pattern is the real number 2000. -/
theorem two_thousand : Ideal.ofBits .f32 0x44FA0000#32 = ((2000 : ℝ) : EReal) := by
  simp [Ideal.ofBits, Ideal.ieee, -EReal.coe_mul]; norm_num

/-- The sum over a graph's 2000 nodes, from the initial value 0: at graph g and feature d it is Σ_n y[g, n, d]. -/
theorem sum_nodes (y : Cert.Spec.FArr Ideal S32x2000x64) (g : Fin 32) (d : Fin 64) :
    Host.reduceAdd y (constant (F := Ideal) S_ .f32 0x00000000#32) reducesTo_S32x2000x64_S32x64_d1 h_S_ (ix2 g d)
      = ∑ n : Fin 2000, y (ix3 g n d) := by
  simp only [Host.reduceAdd, Ideal.hostReduceAdd_def]
  rw [Ideal.hostReduceAdd_single reducesTo_S32x2000x64_S32x64_d1 (by decide)]
  rw [constant_apply, Ideal.ofBits_zero_f32, zero_add]
  exact Finset.sum_congr rfl fun n _ => congrArg y (funext fun a => Fin.ext (by
    match a with | ⟨0, _⟩ => rfl | ⟨1, _⟩ => rfl | ⟨2, _⟩ => rfl))

/-- The mean over the nodes: the sum divided by 2000 is the sum times 1/2000, on every extended real. -/
theorem mean_nodes (y : Cert.Spec.FArr Ideal S32x2000x64) (g : Fin 32) (d : Fin 64) :
    Host.divf (Host.reduceAdd y (constant (F := Ideal) S_ .f32 0x00000000#32) reducesTo_S32x2000x64_S32x64_d1 h_S_)
        (broadcastInDim S32x64 ![] bcast_S_S32x64 (constant (F := Ideal) S_ .f32 0x44FA0000#32)) (ix2 g d)
      = (∑ n : Fin 2000, y (ix3 g n d)) * ((1 / 2000 : ℝ) : EReal) := by
  show Ideal.div (Host.reduceAdd y (constant (F := Ideal) S_ .f32 0x00000000#32) reducesTo_S32x2000x64_S32x64_d1 h_S_ (ix2 g d))
      (broadcastInDim S32x64 ![] bcast_S_S32x64 (constant (F := Ideal) S_ .f32 0x44FA0000#32) (ix2 g d)) = _
  rw [sum_nodes, broadcastInDim_apply _ bcast_S_S32x64 _ (ix2 g d) ix0 (fun a => a.elim0), constant_apply, two_thousand,
    Ideal.div_coe (by norm_num : (2000 : ℝ) ≠ 0)]

/-! The product [32, 64] · [64, 2]: at output (g, j) and contraction coordinate d the left operand is read at (g, d) and
    the right at (d, j).  One lemma per operand axis, at the literal axes. -/

theorem head_lhs_0 (i : S32x2.Idx) (k : dot_S32x64_S64x2_S32x2_1_0_0_1_n_n.contr.Idx) :
    (dot_S32x64_S64x2_S32x2_1_0_0_1_n_n.lhsIdx i k 0).val = (i 0).val := by
  unfold DotDims.lhsIdx
  rw [dif_neg (show ¬(0 : Fin S32x64.rank) ∈ dot_S32x64_S64x2_S32x2_1_0_0_1_n_n.lhsBatch by decide), dif_pos (show (0 : Fin S32x64.rank) ∈ dot_S32x64_S64x2_S32x2_1_0_0_1_n_n.lhsNonContracting by decide)]
  rfl
theorem head_lhs_1 (i : S32x2.Idx) (k : dot_S32x64_S64x2_S32x2_1_0_0_1_n_n.contr.Idx) :
    (dot_S32x64_S64x2_S32x2_1_0_0_1_n_n.lhsIdx i k 1).val = (k ⟨0, by decide⟩).val :=
  dot_S32x64_S64x2_S32x2_1_0_0_1_n_n.lhsIdx_val_of_single rfl i k
theorem head_rhs_0 (i : S32x2.Idx) (k : dot_S32x64_S64x2_S32x2_1_0_0_1_n_n.contr.Idx) :
    (dot_S32x64_S64x2_S32x2_1_0_0_1_n_n.rhsIdx i k 0).val = (k ⟨0, by decide⟩).val :=
  dot_S32x64_S64x2_S32x2_1_0_0_1_n_n.rhsIdx_val_of_single rfl i k
theorem head_rhs_1 (i : S32x2.Idx) (k : dot_S32x64_S64x2_S32x2_1_0_0_1_n_n.contr.Idx) :
    (dot_S32x64_S64x2_S32x2_1_0_0_1_n_n.rhsIdx i k 1).val = (i 1).val := by
  unfold DotDims.rhsIdx
  rw [dif_neg (show ¬(1 : Fin S64x2.rank) ∈ dot_S32x64_S64x2_S32x2_1_0_0_1_n_n.rhsBatch by decide), dif_pos (show (1 : Fin S64x2.rank) ∈ dot_S32x64_S64x2_S32x2_1_0_0_1_n_n.rhsNonContracting by decide)]
  rfl

/-- The bias laid out as a row [1, 2] and repeated down the 32 rows reads, at (g, j), its entry j. -/
theorem bias_row (bh : Cert.Spec.FArr Ideal S2) (g : Fin 32) (q : Fin 2) :
    broadcastInDim S32x2 ![0, 1] bcast_S1x2_S32x2_0_1 (broadcastInDim S1x2 ![1] bcast_S2_S1x2_1 bh) (ix2 g q) = bh (ix1 q) := by
  rw [broadcastInDim_apply _ bcast_S1x2_S32x2_0_1 _ (ix2 g q) (ix2 (0 : Fin 1) q) (fun a => match a with
      | ⟨0, _⟩ => by show 0 = if (1 : Nat) = 1 then 0 else g.val; rw [if_pos rfl]
      | ⟨1, _⟩ => by show q.val = if (2 : Nat) = 1 then 0 else q.val; rw [if_neg (by decide)]),
    broadcastInDim_apply _ bcast_S2_S1x2_1 bh (ix2 (0 : Fin 1) q) (ix1 q) (fun a => match a with
      | ⟨0, _⟩ => by show q.val = if (2 : Nat) = 1 then 0 else q.val; rw [if_neg (by decide)])]

/-- THE POOLING HEAD AT (g, j): Σ_d ((Σ_n y[g, n, d]) · (1/2000)) · wh[d, j] + bh[j], y the [32, 2000, 64] recast of h. -/
theorem poolHead_apply (h : Cert.Spec.FArr Ideal S64000x64) (wh : Cert.Spec.FArr Ideal S64x2) (bh : Cert.Spec.FArr Ideal S2)
    (g : Fin 32) (q : Fin 2) :
    Cert.Spec.poolHead h wh bh (ix2 g q)
      = (∑ d : Fin 64, ((∑ n : Fin 2000, shapeCast S32x2000x64 h shapeCasts_S64000x64_S32x2000x64 (ix3 g n d)) * ((1 / 2000 : ℝ) : EReal)) * wh (ix2 d q))
        + bh (ix1 q) := by
  unfold Cert.Spec.poolHead
  generalize shapeCast S32x2000x64 h shapeCasts_S64000x64_S32x2000x64 = y
  rw [addf_apply, bias_row]
  refine congrArg (· + bh (ix1 q)) ?_
  simp only [Host.dotGeneral]
  rw [Ideal.dotGeneral_apply, ← Equiv.sum_comp (contrEquiv1 dot_S32x64_S64x2_S32x2_1_0_0_1_n_n 64 rfl rfl).symm]
  refine Finset.sum_congr rfl fun d _ => ?_
  have hd := contrEquiv1_symm_val dot_S32x64_S64x2_S32x2_1_0_0_1_n_n 64 rfl rfl d
  have el : dot_S32x64_S64x2_S32x2_1_0_0_1_n_n.lhsIdx (ix2 g q) ((contrEquiv1 dot_S32x64_S64x2_S32x2_1_0_0_1_n_n 64 rfl rfl).symm d) = ix2 g d := funext fun a => Fin.ext (by
    match a with
    | ⟨0, _⟩ => exact head_lhs_0 _ _
    | ⟨1, _⟩ => exact (head_lhs_1 _ _).trans hd)
  have er : dot_S32x64_S64x2_S32x2_1_0_0_1_n_n.rhsIdx (ix2 g q) ((contrEquiv1 dot_S32x64_S64x2_S32x2_1_0_0_1_n_n 64 rfl rfl).symm d) = ix2 d q := funext fun a => Fin.ext (by
    match a with
    | ⟨0, _⟩ => exact (head_rhs_0 _ _).trans hd
    | ⟨1, _⟩ => exact head_rhs_1 _ _)
  rw [el, er, mean_nodes]

end Cert.PoolHeadRead

namespace Cert.KernelIdeal.RegionValue
open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

namespace PoolHead
open Idealize.ShloMosaic.ValueIdx
open Idealize.ShloMosaic.Pipeline (Dat)

/-! ## What the body stores, at an index of its block -/

/-- The named reciprocal is the rational 1/2000. -/
theorem inv_nodes : Named.named (F := Ideal) Cert.KernelIdeal.κ "inv_2000" (φ := .f32) 0x3A03126F#32 = ((1 / 2000 : ℝ) : EReal) :=
  IdealRules.named_const.ideal_named_scalar _ _ _ _ rfl

/-- The sum of a block over its node axis: at row p and feature d it is Σ_n x0[p, n, d]. -/
theorem block_sum (x0 : Vec Ideal S8x2000x64 .f32) (p : Fin 8) (d : Fin 64) :
    multiReduction (F := Ideal) .add [1] S8x64 x0 0x00000000#32 reduces_S8x2000x64_S8x64 (.inl rfl) rfl (ix2 p d)
      = ∑ n : Fin 2000, x0 (ix3 p n d) := by
  refine (Ideal.multiReduction_add_single x0 0x00000000#32 reduces_S8x2000x64_S8x64 (.inl rfl) rfl (ix2 p d)).trans ?_
  exact Finset.sum_congr rfl fun n _ => congrArg x0 (funext fun a => Fin.ext (by
    match a with | ⟨0, _⟩ => rfl | ⟨1, _⟩ => rfl | ⟨2, _⟩ => rfl))

/-! The block's product [8, 64] · [64, 2]: at output (p, j) and contraction coordinate d the left operand is read at
    (p, d) and the right at (d, j).  One lemma per operand axis, at the literal axes. -/

theorem blk_lhs_0 (i : S8x2.Idx) (k : dot_S8x64_S64x2_S8x2_1_0_0_1_n_n.contr.Idx) :
    (dot_S8x64_S64x2_S8x2_1_0_0_1_n_n.lhsIdx i k 0).val = (i 0).val := by
  unfold DotDims.lhsIdx
  rw [dif_neg (show ¬(0 : Fin S8x64.rank) ∈ dot_S8x64_S64x2_S8x2_1_0_0_1_n_n.lhsBatch by decide), dif_pos (show (0 : Fin S8x64.rank) ∈ dot_S8x64_S64x2_S8x2_1_0_0_1_n_n.lhsNonContracting by decide)]
  rfl
theorem blk_lhs_1 (i : S8x2.Idx) (k : dot_S8x64_S64x2_S8x2_1_0_0_1_n_n.contr.Idx) :
    (dot_S8x64_S64x2_S8x2_1_0_0_1_n_n.lhsIdx i k 1).val = (k ⟨0, by decide⟩).val :=
  dot_S8x64_S64x2_S8x2_1_0_0_1_n_n.lhsIdx_val_of_single rfl i k
theorem blk_rhs_0 (i : S8x2.Idx) (k : dot_S8x64_S64x2_S8x2_1_0_0_1_n_n.contr.Idx) :
    (dot_S8x64_S64x2_S8x2_1_0_0_1_n_n.rhsIdx i k 0).val = (k ⟨0, by decide⟩).val :=
  dot_S8x64_S64x2_S8x2_1_0_0_1_n_n.rhsIdx_val_of_single rfl i k
theorem blk_rhs_1 (i : S8x2.Idx) (k : dot_S8x64_S64x2_S8x2_1_0_0_1_n_n.contr.Idx) :
    (dot_S8x64_S64x2_S8x2_1_0_0_1_n_n.rhsIdx i k 1).val = (i 1).val := by
  unfold DotDims.rhsIdx
  rw [dif_neg (show ¬(1 : Fin S64x2.rank) ∈ dot_S8x64_S64x2_S8x2_1_0_0_1_n_n.rhsBatch by decide), dif_pos (show (1 : Fin S64x2.rank) ∈ dot_S8x64_S64x2_S8x2_1_0_0_1_n_n.rhsNonContracting by decide)]
  rfl

/-- The bias row [1, 2] repeated down the block's 8 rows reads, at (p, j), the row's entry (0, j). -/
theorem bias_block (x2 : Vec Ideal S1x2 .f32) (p : Fin 8) (q : Fin 2) :
    broadcastTo S8x2 (shapeCast S1x2 x2 shapeCasts_S1x2_S1x2) broadcasts_S1x2_S8x2 (ix2 p q) = x2 (ix2 (0 : Fin 1) q) := by
  rw [shapeCast_self]
  exact broadcastTo_apply x2 broadcasts_S1x2_S8x2 (ix2 p q) (ix2 (0 : Fin 1) q) (fun a => match a with
    | ⟨0, _⟩ => by show 0 = if (1 : Nat) = 1 then 0 else p.val; rw [if_pos rfl]
    | ⟨1, _⟩ => by show q.val = if (2 : Nat) = 1 then 0 else q.val; rw [if_neg (by decide)])

/-- THE STORED VALUE AT (p, j): Σ_d ((Σ_n x0[p, n, d]) · (1/2000)) · x1[d, j] + x2[0, j].  The changes of format are the
    identity on the extended reals, and the product accumulates into zero. -/
theorem pay_apply (x0 : Vec Ideal S8x2000x64 .f32) (x1 : Vec Ideal S64x2 .f32) (x2 : Vec Ideal S1x2 .f32) (p : Fin 8) (q : Fin 2) :
    k3_pay1 (F := Ideal) x0 x1 x2 (ix2 p q)
      = (∑ d : Fin 64, ((∑ n : Fin 2000, x0 (ix3 p n d)) * ((1 / 2000 : ℝ) : EReal)) * x1 (ix2 d q)) + x2 (ix2 (0 : Fin 1) q) := by
  unfold k3_pay1
  simp only [addf_apply]
  rw [bias_block]
  refine congrArg (· + x2 (ix2 (0 : Fin 1) q)) ?_
  simp only [matmul]
  rw [Ideal.matmul_constant_zero_apply, ← Equiv.sum_comp (contrEquiv1 dot_S8x64_S64x2_S8x2_1_0_0_1_n_n 64 rfl rfl).symm]
  refine Finset.sum_congr rfl fun d _ => ?_
  have hd := contrEquiv1_symm_val dot_S8x64_S64x2_S8x2_1_0_0_1_n_n 64 rfl rfl d
  have el : dot_S8x64_S64x2_S8x2_1_0_0_1_n_n.lhsIdx (ix2 p q) ((contrEquiv1 dot_S8x64_S64x2_S8x2_1_0_0_1_n_n 64 rfl rfl).symm d) = ix2 p d := funext fun a => Fin.ext (by
    match a with
    | ⟨0, _⟩ => exact blk_lhs_0 _ _
    | ⟨1, _⟩ => exact (blk_lhs_1 _ _).trans hd)
  have er : dot_S8x64_S64x2_S8x2_1_0_0_1_n_n.rhsIdx (ix2 p q) ((contrEquiv1 dot_S8x64_S64x2_S8x2_1_0_0_1_n_n 64 rfl rfl).symm d) = ix2 d q := funext fun a => Fin.ext (by
    match a with
    | ⟨0, _⟩ => exact (blk_rhs_0 _ _).trans hd
    | ⟨1, _⟩ => exact blk_rhs_1 _ _)
  rw [el, er, truncf_apply, truncf_apply, mulf_apply, broadcast_apply, shapeCast_self, block_sum, inv_nodes]

/-- The bias recast from [2] to [1, 2] reads, at (0, j), its entry j: both sit at row-major position j. -/
theorem bias_cast (bh : Cert.Spec.FArr Ideal S2) (q : Fin 2) :
    shapeCast S1x2 bh shapeCasts_S2_S1x2 (ix2 (0 : Fin 1) q) = bh (ix1 q) := by
  refine shapeCast_apply bh shapeCasts_S2_S1x2 (ix2 (0 : Fin 1) q) (ix1 q) ?_
  rw [Shape.rowMajor_val_one, Shape.rowMajor_val_two]
  show q.val = 0 * 2 + q.val
  omega

/-- THE JOIN, over abstract blocks: if the feature block's row p is graph g of the recast features (`h0`), the weight block
    is the weights (`h1`) and the bias block's entry (0, j) is the bias's entry j (`h2`), the stored value at (p, j) is the
    specification's pooling head at (g, j). -/
theorem pay_eq_poolHead (x0 : Vec Ideal S8x2000x64 .f32) (x1 : Vec Ideal S64x2 .f32) (x2 : Vec Ideal S1x2 .f32)
    (h : Cert.Spec.FArr Ideal S64000x64) (wh : Cert.Spec.FArr Ideal S64x2) (bh : Cert.Spec.FArr Ideal S2)
    (p : Fin 8) (q : Fin 2) (g : Fin 32)
    (h0 : ∀ (n : Fin 2000) (d : Fin 64), x0 (ix3 p n d) = shapeCast S32x2000x64 h shapeCasts_S64000x64_S32x2000x64 (ix3 g n d))
    (h1 : ∀ d : Fin 64, x1 (ix2 d q) = wh (ix2 d q))
    (h2 : x2 (ix2 (0 : Fin 1) q) = bh (ix1 q)) :
    k3_pay1 (F := Ideal) x0 x1 x2 (ix2 p q) = Cert.Spec.poolHead h wh bh (ix2 g q) := by
  rw [pay_apply, Cert.PoolHeadRead.poolHead_apply, h2]
  refine congrArg (· + bh (ix1 q)) (Finset.sum_congr rfl fun d _ => ?_)
  rw [h1 d, Finset.sum_congr rfl fun n _ => h0 n d]

/-! ## From the blocks to the array -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The index maps over the 4 grid points: the feature window moves with the output window along the graph axis and
    stands at block 0 on its other axes; the weight and bias windows stand at block 0; the output's block index is
    (t, 0) with t ≤ 3. -/
theorem idx_facts : ∀ t : Fin cfg3.N,
    win3_0.index t (0 : Fin 3) = win3_3.index t (0 : Fin 2) ∧ win3_0.index t (1 : Fin 3) = 0 ∧ win3_0.index t (2 : Fin 3) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 3 :=
  (by decide +kernel : ∀ t : Fin grid3.N, _)

/-- Each of the 4 row blocks of the output is some point's. -/
theorem idx_onto : ∀ b : Fin 4, ∃ t : Fin cfg3.N, win3_3.index t = ![b.val, 0] :=
  (by decide +kernel : ∀ b : Fin 4, ∃ t : Fin grid3.N, win3_3.index t = ![b.val, 0])

/-- WHAT POINT t WRITES BACK is block t of the specification's pooling head: row p of the block is graph
    8 · (block index) + p, whose 2000 node rows are exactly row p of the feature block. -/
theorem flushed_eq (c : Dev nD) (h : Cert.Spec.FArr Ideal S64000x64) (bh : Cert.Spec.FArr Ideal S2)
    (hh : V c main_v69 = shapeCast S32x2000x64 h shapeCasts_S64000x64_S32x2000x64)
    (hb : V c main_v70 = shapeCast S1x2 bh shapeCasts_S2_S1x2) (t : Fin cfg3.N) :
    (dat3 (F := Ideal) V c).flushed 3 t
      = ((cfg3.win 3).blk t).view.read (Elt Ideal) (Cert.Spec.poolHead h (V c main_arg6) bh) := by
  show (cfg3.win 3).cut (grid3.coords t) ((dat3 (F := Ideal) V c).after 3 t) = _
  rw [after3_3]
  unfold out3_3
  rw [View.canon_unit_zero zeros2]
  simp only [View.ld_unit_zero (S := S8x2000x64) zeros3, View.ld_unit_zero (S := S64x2) zeros2, View.ld_unit_zero (S := S1x2) zeros2]
  obtain ⟨e00, e01, e02, e10, e11, e20, e21, e31, e3le⟩ := idx_facts t
  funext j
  show k3_pay1 (F := Ideal) (iblk3 V c 0 t) (iblk3 V c 1 t) (iblk3 V c 2 t) j
    = Cert.Spec.poolHead h (V c main_arg6) bh (((cfg3.win 3).blk t).view.emb j)
  obtain ⟨p, q, rfl⟩ : ∃ (p : Fin 8) (q : Fin 2), j = ix2 p q := ⟨j 0, j 1, eq_ix2 j⟩
  have hg : win3_3.index t (0 : Fin 2) * 8 + p.val < 32 := by have := p.isLt; omega
  -- the block's entry (p, j) sits at (8 · block index + p, j) of the array
  have hi : ((cfg3.win 3).blk t).view.emb (ix2 p q) = ix2 (⟨win3_3.index t (0 : Fin 2) * 8 + p.val, hg⟩ : Fin 32) q := by
    funext a; apply Fin.ext
    match a with
    | ⟨0, _⟩ => show win3_3.index t (0 : Fin 2) * 8 + 1 * p.val = win3_3.index t (0 : Fin 2) * 8 + p.val; omega
    | ⟨1, _⟩ => show win3_3.index t (1 : Fin 2) * 2 + 1 * q.val = q.val; omega
  rw [hi]
  refine pay_eq_poolHead _ _ _ h (V c main_arg6) bh p q _ ?_ ?_ ?_
  · -- the feature block's (p, n, d) is the array's (8 · block index + p, n, d)
    intro n d
    show V c main_v69 (((cfg3.win 0).blk t).view.emb (ix3 p n d)) = _
    rw [hh]
    refine congrArg _ (funext fun a => Fin.ext ?_)
    match a with
    | ⟨0, _⟩ => show win3_0.index t (0 : Fin 3) * 8 + 1 * p.val = win3_3.index t (0 : Fin 2) * 8 + p.val; omega
    | ⟨1, _⟩ => show win3_0.index t (1 : Fin 3) * 2000 + 1 * n.val = n.val; omega
    | ⟨2, _⟩ => show win3_0.index t (2 : Fin 3) * 64 + 1 * d.val = d.val; omega
  · -- the weight block is the whole weight array
    intro d
    show V c main_arg6 (((cfg3.win 1).blk t).view.emb (ix2 d q)) = _
    refine congrArg _ (funext fun a => Fin.ext ?_)
    match a with
    | ⟨0, _⟩ => show win3_1.index t (0 : Fin 2) * 64 + 1 * d.val = d.val; omega
    | ⟨1, _⟩ => show win3_1.index t (1 : Fin 2) * 2 + 1 * q.val = q.val; omega
  · -- the bias block is the whole bias row, the recast of the bias
    show V c main_v70 (((cfg3.win 2).blk t).view.emb (ix2 (0 : Fin 1) q)) = _
    rw [hb, ← bias_cast bh q]
    refine congrArg _ (funext fun a => Fin.ext ?_)
    match a with
    | ⟨0, _⟩ => show win3_2.index t (0 : Fin 2) * 1 + 1 * 0 = 0; omega
    | ⟨1, _⟩ => show win3_2.index t (1 : Fin 2) * 2 + 1 * q.val = q.val; omega

/-- An index of the result array is in point t's block iff each coordinate is in the block's range on its axis. -/
theorem mem_blk (t : Fin cfg3.N) (i : S32x2.Idx) :
    i ∈ ((cfg3.win 3).blk t).view.set ↔ ∀ a : Fin 2, win3_3.index t a * S8x2.size a ≤ (i a).val ∧ (i a).val < win3_3.index t a * S8x2.size a + S8x2.size a := by
  show i ∈ ((View.whole main_v71).slice (win3_3.rect t)).set ↔ _
  rw [View.set_slice_whole, Rect.mem_set_unit]
  exact Iff.rfl

/-- Every index of the result is in some point's block: row r is in row block r / 8. -/
theorem cover (i : S32x2.Idx) : ∃ t : Fin cfg3.N, (cfg3.win 3).flush t = true ∧ i ∈ ((cfg3.win 3).blk t).view.set := by
  have hi0 : (i 0).val < 32 := (i 0).isLt
  have hi1 : (i 1).val < 2 := (i 1).isLt
  obtain ⟨t, ht⟩ := idx_onto ⟨(i 0).val / 8, by omega⟩
  have b0 : win3_3.index t (0 : Fin 2) = (i 0).val / 8 := congrFun ht 0
  have b1 : win3_3.index t (1 : Fin 2) = 0 := congrFun ht 1
  refine ⟨t, flush3_3 t, ?_⟩
  rw [mem_blk]
  intro a
  match a with
  | ⟨0, _⟩ => show win3_3.index t (0 : Fin 2) * 8 ≤ (i 0).val ∧ (i 0).val < win3_3.index t (0 : Fin 2) * 8 + 8; omega
  | ⟨1, _⟩ => show win3_3.index t (1 : Fin 2) * 2 ≤ (i 1).val ∧ (i 1).val < win3_3.index t (1 : Fin 2) * 2 + 2; omega

end PoolHead

/-- REGION 3. After the region the result array is the specification's pooling head of the features, the weights and
    the bias: every point writes back its block of that one function, and the blocks cover the array. -/
theorem region3_value (c : Dev nD) (h : Cert.Spec.FArr Ideal S64000x64) (bh : Cert.Spec.FArr Ideal S2)
    (hh : V c main_v69 = shapeCast S32x2000x64 h shapeCasts_S64000x64_S32x2000x64)
    (hb : V c main_v70 = shapeCast S1x2 bh shapeCasts_S2_S1x2) :
    (dat3 (F := Ideal) V c).arrAt 3 cfg3.N = Cert.Spec.poolHead h (V c main_arg6) bh :=
  (dat3 (F := Ideal) V c).arrAt_eq_of_cover 3 (Cert.Spec.poolHead h (V c main_arg6) bh)
    (fun t _ => PoolHead.flushed_eq V c h bh hh hb t) PoolHead.cover

end Cert.KernelIdeal.RegionValue
end
-- ==== Proof.Thread.lean ====
/-
  The kernel program's result as a function of its arguments.

  Between the four pallas regions the program runs host operations; the buffer contents at each boundary are a fold
  through them.  Here each buffer the next region (or the result) reads is followed through that fold:
  * after the first reshape, region 0 finds the input laid out as [32, 50, 6000];
  * region 0 leaves the node means; the operations up to region 1 recast them to [64000, 3] and compute, from the
    edge list alone, the source and target index vectors and the per-edge norm;
  * region 1 leaves (node means) x W1; the operations up to region 2 are one graph-convolution layer on it;
  * region 2 leaves (layer 1) x W2; the operations up to region 3 are the second layer, recast to [32, 2000, 64],
    and the head's bias recast to [1, 2];
  * region 3 leaves the pooled head.
  A buffer no operation in between writes is read back unchanged; a region changes only its own arrays.
-/
import proofs.«408987_j65163243815592_3_alg».proof.Proof.Gen.KernelIdeal.Frame
import proofs.«408987_j65163243815592_3_alg».proof.Proof.Spec
import proofs.«408987_j65163243815592_3_alg».proof.Proof.Region0
import proofs.«408987_j65163243815592_3_alg».proof.Proof.Region1
import proofs.«408987_j65163243815592_3_alg».proof.Proof.Region2
import proofs.«408987_j65163243815592_3_alg».proof.Proof.Region3
import Idealize.ShloMosaic.Lib.StableHlo.Run

set_option maxRecDepth 16384

noncomputable section

namespace Cert.Spec

open Idealize.ShloMosaic Idealize.ShloMosaic.TcCoe Cert.ReferenceIdeal Cert.ReferenceIdeal.Gen

variable {F : FTy → Type} [FloatOps F]

/-- A graph-convolution layer over given source indices, target indices and per-edge norms. -/
def layerOf (src dst : IArr F S1064000) (nrm : FArr F S1064000) (ht : FArr F S64000x64) (bias : FArr F S64) : FArr F S64000x64 :=
  maximumf (addf (Host.scatterAdd scatter_S64000x64_S1064000x1_S1064000x64_1_0_0_1 (broadcastInDim S64000x64 ![] bcast_S_S64000x64 (constant S_ .f32 0x00000000#32)) (broadcastInDim S1064000x1 ![0] bcast_S1064000_S1064000x1_0 dst) (mulf (Host.gather gather_S64000x64_S1064000x1_S1064000x64_1_0_n_n_0_1_164 ht (broadcastInDim S1064000x1 ![0] bcast_S1064000_S1064000x1_0 (wrapIdx src))) (broadcastInDim S1064000x64 ![0, 1] bcast_S1064000x1_S1064000x64_0_1 (broadcastInDim S1064000x1 ![0] bcast_S1064000_S1064000x1_0 nrm)))) (broadcastInDim S64000x64 ![0, 1] bcast_S1x64_S64000x64_0_1 (broadcastInDim S1x64 ![1] bcast_S64_S1x64_1 bias))) (broadcastInDim S64000x64 ![] bcast_S_S64000x64 (constant S_ .f32 0x00000000#32))

/-- The layer of the specification is that layer at the edge list's own indices and norms. -/
theorem gcnLayer_eq (e : IArr F S2x1000000) (ht : FArr F S64000x64) (bias : FArr F S64) :
    gcnLayer e ht bias = layerOf (srcIdx e) (dstIdx e) (edgeNorm e) ht bias := rfl

end Cert.Spec

namespace Cert.KernelIdeal.Thread

open Idealize.ShloMosaic Idealize.ShloMosaic.TcCoe Idealize.SL.Sem Idealize.ShloMosaic.StableHlo
open Cert.KernelIdeal Cert.KernelIdeal.Gen

/-! ## The host stretches, from any contents -/

section Stretches

variable {F : FTy → Type} [FloatOps F] [Named F]

/-- The operation before region 0. -/
abbrev st0 (X : Valuation τ sig (Elt F)) : Valuation τ sig (Elt F) := StableHlo.after hostOps0 X
/-- The operations between regions 0 and 1. -/
abbrev stA (X : Valuation τ sig (Elt F)) : Valuation τ sig (Elt F) :=
  StableHlo.after hostOps1_2 (StableHlo.after hostOps1_1 (StableHlo.after hostOps1 X))
/-- The operations between regions 1 and 2. -/
abbrev stB (X : Valuation τ sig (Elt F)) : Valuation τ sig (Elt F) :=
  StableHlo.after hostOps2_1 (StableHlo.after hostOps2 X)
/-- The operations between regions 2 and 3. -/
abbrev stC (X : Valuation τ sig (Elt F)) : Valuation τ sig (Elt F) :=
  StableHlo.after hostOps3_2 (StableHlo.after hostOps3_1 (StableHlo.after hostOps3 X))

/-- The input as region 0 finds it: time steps kept, nodes and features on one axis. -/
theorem st0_v0 (X : Valuation τ sig (Elt F)) :
    st0 X (Proc.devRef .tc main_v0) = shapeCast S32x50x6000 (X (Proc.devRef .tc main_arg0)) shapeCasts_S32x50x2000x3_S32x50x6000 := by
  after_results_simp
  rfl
theorem st0_arg1 (X : Valuation τ sig (Elt F)) : st0 X (Proc.devRef .tc main_arg1) = X (Proc.devRef .tc main_arg1) := by after_results_simp
theorem st0_arg2 (X : Valuation τ sig (Elt F)) : st0 X (Proc.devRef .tc main_arg2) = X (Proc.devRef .tc main_arg2) := by after_results_simp
theorem st0_arg3 (X : Valuation τ sig (Elt F)) : st0 X (Proc.devRef .tc main_arg3) = X (Proc.devRef .tc main_arg3) := by after_results_simp
theorem st0_arg4 (X : Valuation τ sig (Elt F)) : st0 X (Proc.devRef .tc main_arg4) = X (Proc.devRef .tc main_arg4) := by after_results_simp
theorem st0_arg5 (X : Valuation τ sig (Elt F)) : st0 X (Proc.devRef .tc main_arg5) = X (Proc.devRef .tc main_arg5) := by after_results_simp
theorem st0_arg6 (X : Valuation τ sig (Elt F)) : st0 X (Proc.devRef .tc main_arg6) = X (Proc.devRef .tc main_arg6) := by after_results_simp
theorem st0_arg7 (X : Valuation τ sig (Elt F)) : st0 X (Proc.devRef .tc main_arg7) = X (Proc.devRef .tc main_arg7) := by after_results_simp

/-- Region 0's output, one row per node. -/
theorem stA_v2 (X : Valuation τ sig (Elt F)) :
    stA X (Proc.devRef .tc main_v2) = shapeCast S64000x3 (X (Proc.devRef .tc main_v1)) shapeCasts_S32x1x6000_S64000x3 := by
  after_results_simp
  rfl
/-- The source indices. -/
theorem stA_v6 (X : Valuation τ sig (Elt F)) :
    stA X (Proc.devRef .tc main_v6) = Cert.Spec.srcIdx (X (Proc.devRef .tc main_arg1)) := by
  after_results_simp
  rfl
/-- The target indices. -/
theorem stA_v9 (X : Valuation τ sig (Elt F)) :
    stA X (Proc.devRef .tc main_v9) = Cert.Spec.dstIdx (X (Proc.devRef .tc main_arg1)) := by
  after_results_simp
  rfl
/-- The per-edge norms. -/
theorem stA_v32 (X : Valuation τ sig (Elt F)) :
    stA X (Proc.devRef .tc main_v32) = Cert.Spec.edgeNorm (X (Proc.devRef .tc main_arg1)) := by
  after_results_simp
  rfl
theorem stA_arg2 (X : Valuation τ sig (Elt F)) : stA X (Proc.devRef .tc main_arg2) = X (Proc.devRef .tc main_arg2) := by after_results_simp
theorem stA_arg3 (X : Valuation τ sig (Elt F)) : stA X (Proc.devRef .tc main_arg3) = X (Proc.devRef .tc main_arg3) := by after_results_simp
theorem stA_arg4 (X : Valuation τ sig (Elt F)) : stA X (Proc.devRef .tc main_arg4) = X (Proc.devRef .tc main_arg4) := by after_results_simp
theorem stA_arg5 (X : Valuation τ sig (Elt F)) : stA X (Proc.devRef .tc main_arg5) = X (Proc.devRef .tc main_arg5) := by after_results_simp
theorem stA_arg6 (X : Valuation τ sig (Elt F)) : stA X (Proc.devRef .tc main_arg6) = X (Proc.devRef .tc main_arg6) := by after_results_simp
theorem stA_arg7 (X : Valuation τ sig (Elt F)) : stA X (Proc.devRef .tc main_arg7) = X (Proc.devRef .tc main_arg7) := by after_results_simp

/-- The first layer, on what region 1 left. -/
theorem stB_v50 (X : Valuation τ sig (Elt F)) :
    stB X (Proc.devRef .tc main_v50) = Cert.Spec.layerOf (X (Proc.devRef .tc main_v6)) (X (Proc.devRef .tc main_v9)) (X (Proc.devRef .tc main_v32)) (X (Proc.devRef .tc main_v33)) (X (Proc.devRef .tc main_arg3)) := by
  after_results_simp
  rfl
theorem stB_v6 (X : Valuation τ sig (Elt F)) : stB X (Proc.devRef .tc main_v6) = X (Proc.devRef .tc main_v6) := by after_results_simp
theorem stB_v9 (X : Valuation τ sig (Elt F)) : stB X (Proc.devRef .tc main_v9) = X (Proc.devRef .tc main_v9) := by after_results_simp
theorem stB_v32 (X : Valuation τ sig (Elt F)) : stB X (Proc.devRef .tc main_v32) = X (Proc.devRef .tc main_v32) := by after_results_simp
theorem stB_arg4 (X : Valuation τ sig (Elt F)) : stB X (Proc.devRef .tc main_arg4) = X (Proc.devRef .tc main_arg4) := by after_results_simp
theorem stB_arg5 (X : Valuation τ sig (Elt F)) : stB X (Proc.devRef .tc main_arg5) = X (Proc.devRef .tc main_arg5) := by after_results_simp
theorem stB_arg6 (X : Valuation τ sig (Elt F)) : stB X (Proc.devRef .tc main_arg6) = X (Proc.devRef .tc main_arg6) := by after_results_simp
theorem stB_arg7 (X : Valuation τ sig (Elt F)) : stB X (Proc.devRef .tc main_arg7) = X (Proc.devRef .tc main_arg7) := by after_results_simp

/-- The second layer, on what region 2 left, one plane per graph. -/
theorem stC_v69 (X : Valuation τ sig (Elt F)) :
    stC X (Proc.devRef .tc main_v69) = shapeCast S32x2000x64 (Cert.Spec.layerOf (X (Proc.devRef .tc main_v6)) (X (Proc.devRef .tc main_v9)) (X (Proc.devRef .tc main_v32)) (X (Proc.devRef .tc main_v51)) (X (Proc.devRef .tc main_arg5))) shapeCasts_S64000x64_S32x2000x64 := by
  after_results_simp
  rfl
/-- The head's bias as one row. -/
theorem stC_v70 (X : Valuation τ sig (Elt F)) :
    stC X (Proc.devRef .tc main_v70) = shapeCast S1x2 (X (Proc.devRef .tc main_arg7)) shapeCasts_S2_S1x2 := by
  after_results_simp
  rfl
theorem stC_arg6 (X : Valuation τ sig (Elt F)) : stC X (Proc.devRef .tc main_arg6) = X (Proc.devRef .tc main_arg6) := by after_results_simp

end Stretches

end Cert.KernelIdeal.Thread

/-! ## The boundaries, at the exact instance -/

namespace Cert.KernelIdeal.Thread

open Idealize.ShloMosaic Idealize.ShloMosaic.TcCoe Idealize.SL.Sem Idealize.ShloMosaic.StableHlo
open Cert.KernelIdeal Cert.KernelIdeal.Gen Cert.KernelIdeal.RegionValue

variable (m : (ℓ : Loc nD τ sig) → Buf (Elt Ideal) ℓ) (ρ : Dev nD → PrngReg) (c : Dev nD)

/-! ### Region 0's entry -/

theorem W1_v0 : W1 m ρ c (Proc.devRef .tc main_v0) = shapeCast S32x50x6000 (m ((c : Thread nD τ).loc main_arg0)) shapeCasts_S32x50x2000x3_S32x50x6000 :=
  st0_v0 (W0 m ρ c)
theorem W1_arg1 : W1 m ρ c (Proc.devRef .tc main_arg1) = (m ((c : Thread nD τ).loc main_arg1)) := st0_arg1 (W0 m ρ c)
theorem W1_arg2 : W1 m ρ c (Proc.devRef .tc main_arg2) = (m ((c : Thread nD τ).loc main_arg2)) := st0_arg2 (W0 m ρ c)
theorem W1_arg3 : W1 m ρ c (Proc.devRef .tc main_arg3) = (m ((c : Thread nD τ).loc main_arg3)) := st0_arg3 (W0 m ρ c)
theorem W1_arg4 : W1 m ρ c (Proc.devRef .tc main_arg4) = (m ((c : Thread nD τ).loc main_arg4)) := st0_arg4 (W0 m ρ c)
theorem W1_arg5 : W1 m ρ c (Proc.devRef .tc main_arg5) = (m ((c : Thread nD τ).loc main_arg5)) := st0_arg5 (W0 m ρ c)
theorem W1_arg6 : W1 m ρ c (Proc.devRef .tc main_arg6) = (m ((c : Thread nD τ).loc main_arg6)) := st0_arg6 (W0 m ρ c)
theorem W1_arg7 : W1 m ρ c (Proc.devRef .tc main_arg7) = (m ((c : Thread nD τ).loc main_arg7)) := st0_arg7 (W0 m ρ c)

/-! ### Region 0's exit: the node means -/

theorem W2_v1 : W2 m ρ c (Proc.devRef .tc main_v1) = (dat0 (V1 m ρ) c).arrAt 1 cfg0.N := W2_arr m ρ c 1
theorem W2_arg1 : W2 m ρ c (Proc.devRef .tc main_arg1) = (m ((c : Thread nD τ).loc main_arg1)) := (W2_of_ne m ρ c main_arg1 (by decide)).trans (W1_arg1 m ρ c)
theorem W2_arg2 : W2 m ρ c (Proc.devRef .tc main_arg2) = (m ((c : Thread nD τ).loc main_arg2)) := (W2_of_ne m ρ c main_arg2 (by decide)).trans (W1_arg2 m ρ c)
theorem W2_arg3 : W2 m ρ c (Proc.devRef .tc main_arg3) = (m ((c : Thread nD τ).loc main_arg3)) := (W2_of_ne m ρ c main_arg3 (by decide)).trans (W1_arg3 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)
theorem W2_arg7 : W2 m ρ c (Proc.devRef .tc main_arg7) = (m ((c : Thread nD τ).loc main_arg7)) := (W2_of_ne m ρ c main_arg7 (by decide)).trans (W1_arg7 m ρ c)

/-- Region 0 leaves the mean over the time steps; recast, one row per node. -/
theorem nodeMean_at_W2 :
    shapeCast S64000x3 (W2 m ρ c (Proc.devRef .tc main_v1)) shapeCasts_S32x1x6000_S64000x3 = Cert.Spec.nodeMean (m ((c : Thread nD τ).loc main_arg0)) := by
  rw [W2_v1]
  exact region0_value (V1 m ρ) c _ (W1_v0 m ρ c)

/-! ### Region 1's entry -/

theorem W5_v2 : W5 m ρ c (Proc.devRef .tc main_v2) = Cert.Spec.nodeMean (m ((c : Thread nD τ).loc main_arg0)) :=
  (stA_v2 (W2 m ρ c)).trans (nodeMean_at_W2 m ρ c)
theorem W5_v6 : W5 m ρ c (Proc.devRef .tc main_v6) = Cert.Spec.srcIdx (m ((c : Thread nD τ).loc main_arg1)) :=
  (stA_v6 (W2 m ρ c)).trans (congrArg Cert.Spec.srcIdx (W2_arg1 m ρ c))
theorem W5_v9 : W5 m ρ c (Proc.devRef .tc main_v9) = Cert.Spec.dstIdx (m ((c : Thread nD τ).loc main_arg1)) :=
  (stA_v9 (W2 m ρ c)).trans (congrArg Cert.Spec.dstIdx (W2_arg1 m ρ c))
theorem W5_v32 : W5 m ρ c (Proc.devRef .tc main_v32) = Cert.Spec.edgeNorm (m ((c : Thread nD τ).loc main_arg1)) :=
  (stA_v32 (W2 m ρ c)).trans (congrArg Cert.Spec.edgeNorm (W2_arg1 m ρ c))
theorem W5_arg2 : W5 m ρ c (Proc.devRef .tc main_arg2) = (m ((c : Thread nD τ).loc main_arg2)) := (stA_arg2 (W2 m ρ c)).trans (W2_arg2 m ρ c)
theorem W5_arg3 : W5 m ρ c (Proc.devRef .tc main_arg3) = (m ((c : Thread nD τ).loc main_arg3)) := (stA_arg3 (W2 m ρ c)).trans (W2_arg3 m ρ c)
theorem W5_arg4 : W5 m ρ c (Proc.devRef .tc main_arg4) = (m ((c : Thread nD τ).loc main_arg4)) := (stA_arg4 (W2 m ρ c)).trans (W2_arg4 m ρ c)
theorem W5_arg5 : W5 m ρ c (Proc.devRef .tc main_arg5) = (m ((c : Thread nD τ).loc main_arg5)) := (stA_arg5 (W2 m ρ c)).trans (W2_arg5 m ρ c)
theorem W5_arg6 : W5 m ρ c (Proc.devRef .tc main_arg6) = (m ((c : Thread nD τ).loc main_arg6)) := (stA_arg6 (W2 m ρ c)).trans (W2_arg6 m ρ c)
theorem W5_arg7 : W5 m ρ c (Proc.devRef .tc main_arg7) = (m ((c : Thread nD τ).loc main_arg7)) := (stA_arg7 (W2 m ρ c)).trans (W2_arg7 m ρ c)

/-! ### Region 1's exit: the first feature transform -/

theorem W6_v33 : W6 m ρ c (Proc.devRef .tc main_v33) = Cert.Spec.transform1 (Cert.Spec.nodeMean (m ((c : Thread nD τ).loc main_arg0))) (m ((c : Thread nD τ).loc main_arg2)) := by
  refine (W6_arr m ρ c 2).trans ((region1_value (V5 m ρ) c).trans ?_)
  rw [show V5 m ρ c main_v2 = _ from W5_v2 m ρ c, show V5 m ρ c main_arg2 = _ from W5_arg2 m ρ c]
theorem W6_v6 : W6 m ρ c (Proc.devRef .tc main_v6) = W5 m ρ c (Proc.devRef .tc main_v6) := W6_of_ne m ρ c main_v6 (by decide)
theorem W6_v9 : W6 m ρ c (Proc.devRef .tc main_v9) = W5 m ρ c (Proc.devRef .tc main_v9) := W6_of_ne m ρ c main_v9 (by decide)
theorem W6_v32 : W6 m ρ c (Proc.devRef .tc main_v32) = W5 m ρ c (Proc.devRef .tc main_v32) := W6_of_ne m ρ c main_v32 (by decide)
theorem W6_arg3 : W6 m ρ c (Proc.devRef .tc main_arg3) = (m ((c : Thread nD τ).loc main_arg3)) := (W6_of_ne m ρ c main_arg3 (by decide)).trans (W5_arg3 m ρ c)
theorem W6_arg4 : W6 m ρ c (Proc.devRef .tc main_arg4) = (m ((c : Thread nD τ).loc main_arg4)) := (W6_of_ne m ρ c main_arg4 (by decide)).trans (W5_arg4 m ρ c)
theorem W6_arg5 : W6 m ρ c (Proc.devRef .tc main_arg5) = (m ((c : Thread nD τ).loc main_arg5)) := (W6_of_ne m ρ c main_arg5 (by decide)).trans (W5_arg5 m ρ c)
theorem W6_arg6 : W6 m ρ c (Proc.devRef .tc main_arg6) = (m ((c : Thread nD τ).loc main_arg6)) := (W6_of_ne m ρ c main_arg6 (by decide)).trans (W5_arg6 m ρ c)
theorem W6_arg7 : W6 m ρ c (Proc.devRef .tc main_arg7) = (m ((c : Thread nD τ).loc main_arg7)) := (W6_of_ne m ρ c main_arg7 (by decide)).trans (W5_arg7 m ρ c)

/-! ### Region 2's entry: the first layer -/

theorem W8_v50 : W8 m ρ c (Proc.devRef .tc main_v50) = Cert.Spec.gcnLayer (m ((c : Thread nD τ).loc main_arg1)) (Cert.Spec.transform1 (Cert.Spec.nodeMean (m ((c : Thread nD τ).loc main_arg0))) (m ((c : Thread nD τ).loc main_arg2))) (m ((c : Thread nD τ).loc main_arg3)) := by
  refine (stB_v50 (W6 m ρ c)).trans ?_
  rw [W6_v6, W6_v9, W6_v32, W5_v6, W5_v9, W5_v32, W6_v33, W6_arg3, Cert.Spec.gcnLayer_eq]
theorem W8_v6 : W8 m ρ c (Proc.devRef .tc main_v6) = W5 m ρ c (Proc.devRef .tc main_v6) := (stB_v6 (W6 m ρ c)).trans (W6_v6 m ρ c)
theorem W8_v9 : W8 m ρ c (Proc.devRef .tc main_v9) = W5 m ρ c (Proc.devRef .tc main_v9) := (stB_v9 (W6 m ρ c)).trans (W6_v9 m ρ c)
theorem W8_v32 : W8 m ρ c (Proc.devRef .tc main_v32) = W5 m ρ c (Proc.devRef .tc main_v32) := (stB_v32 (W6 m ρ c)).trans (W6_v32 m ρ c)
theorem W8_arg4 : W8 m ρ c (Proc.devRef .tc main_arg4) = (m ((c : Thread nD τ).loc main_arg4)) := (stB_arg4 (W6 m ρ c)).trans (W6_arg4 m ρ c)
theorem W8_arg5 : W8 m ρ c (Proc.devRef .tc main_arg5) = (m ((c : Thread nD τ).loc main_arg5)) := (stB_arg5 (W6 m ρ c)).trans (W6_arg5 m ρ c)
theorem W8_arg6 : W8 m ρ c (Proc.devRef .tc main_arg6) = (m ((c : Thread nD τ).loc main_arg6)) := (stB_arg6 (W6 m ρ c)).trans (W6_arg6 m ρ c)
theorem W8_arg7 : W8 m ρ c (Proc.devRef .tc main_arg7) = (m ((c : Thread nD τ).loc main_arg7)) := (stB_arg7 (W6 m ρ c)).trans (W6_arg7 m ρ c)

/-! ### Region 2's exit: the second feature transform -/

/-- The first layer's output, as a function of the arguments. -/
abbrev layer1 : Cert.Spec.FArr Ideal S64000x64 :=
  Cert.Spec.gcnLayer (m ((c : Thread nD τ).loc main_arg1)) (Cert.Spec.transform1 (Cert.Spec.nodeMean (m ((c : Thread nD τ).loc main_arg0))) (m ((c : Thread nD τ).loc main_arg2))) (m ((c : Thread nD τ).loc main_arg3))

theorem W9_v51 : W9 m ρ c (Proc.devRef .tc main_v51) = Cert.Spec.transform2 (layer1 m c) (m ((c : Thread nD τ).loc main_arg4)) := by
  refine (W9_arr m ρ c 2).trans ((region2_value (V8 m ρ) c).trans ?_)
  rw [show V8 m ρ c main_v50 = _ from W8_v50 m ρ c, show V8 m ρ c main_arg4 = _ from W8_arg4 m ρ c]
theorem W9_v6 : W9 m ρ c (Proc.devRef .tc main_v6) = W5 m ρ c (Proc.devRef .tc main_v6) := (W9_of_ne m ρ c main_v6 (by decide)).trans (W8_v6 m ρ c)
theorem W9_v9 : W9 m ρ c (Proc.devRef .tc main_v9) = W5 m ρ c (Proc.devRef .tc main_v9) := (W9_of_ne m ρ c main_v9 (by decide)).trans (W8_v9 m ρ c)
theorem W9_v32 : W9 m ρ c (Proc.devRef .tc main_v32) = W5 m ρ c (Proc.devRef .tc main_v32) := (W9_of_ne m ρ c main_v32 (by decide)).trans (W8_v32 m ρ c)
theorem W9_arg5 : W9 m ρ c (Proc.devRef .tc main_arg5) = (m ((c : Thread nD τ).loc main_arg5)) := (W9_of_ne m ρ c main_arg5 (by decide)).trans (W8_arg5 m ρ c)
theorem W9_arg6 : W9 m ρ c (Proc.devRef .tc main_arg6) = (m ((c : Thread nD τ).loc main_arg6)) := (W9_of_ne m ρ c main_arg6 (by decide)).trans (W8_arg6 m ρ c)
theorem W9_arg7 : W9 m ρ c (Proc.devRef .tc main_arg7) = (m ((c : Thread nD τ).loc main_arg7)) := (W9_of_ne m ρ c main_arg7 (by decide)).trans (W8_arg7 m ρ c)

/-! ### Region 3's entry: the second layer, and the head's bias -/

/-- The second layer's output, as a function of the arguments. -/
abbrev layer2 : Cert.Spec.FArr Ideal S64000x64 :=
  Cert.Spec.gcnLayer (m ((c : Thread nD τ).loc main_arg1)) (Cert.Spec.transform2 (layer1 m c) (m ((c : Thread nD τ).loc main_arg4))) (m ((c : Thread nD τ).loc main_arg5))

theorem W12_v69 : W12 m ρ c (Proc.devRef .tc main_v69) = shapeCast S32x2000x64 (layer2 m c) shapeCasts_S64000x64_S32x2000x64 := by
  refine (stC_v69 (W9 m ρ c)).trans ?_
  rw [W9_v6, W9_v9, W9_v32, W5_v6, W5_v9, W5_v32, W9_v51, W9_arg5, ← Cert.Spec.gcnLayer_eq]
theorem W12_v70 : W12 m ρ c (Proc.devRef .tc main_v70) = shapeCast S1x2 (m ((c : Thread nD τ).loc main_arg7)) shapeCasts_S2_S1x2 :=
  (stC_v70 (W9 m ρ c)).trans (by rw [W9_arg7])
theorem W12_arg6 : W12 m ρ c (Proc.devRef .tc main_arg6) = (m ((c : Thread nD τ).loc main_arg6)) := (stC_arg6 (W9 m ρ c)).trans (W9_arg6 m ρ c)

/-! ### Region 3's exit: the result -/

/-- THE KERNEL PROGRAM'S RESULT: the last boundary's contents at the result buffer are the whole network of the
    launch arrays. -/
theorem result_value :
    W13 m ρ c (Proc.devRef .tc main_v71) = Cert.Spec.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W13_arr m ρ c 3).trans ((region3_value (V12 m ρ) c _ _ (W12_v69 m ρ c) (W12_v70 m ρ c)).trans ?_)
  rw [show V12 m ρ c main_arg6 = _ from W12_arg6 m ρ c]
  rfl

end Cert.KernelIdeal.Thread

end
-- ==== Proof.lean ====
/-
  Two programs for a two-layer graph-convolution network over a batch of 32 graphs of 2000 nodes, read at the exact
  instance (a float is an extended real, a change of float format the identity):

      h0  = mean over the 50 time steps of x,                          one row of 3 features per node
      h1  = relu (A (h0 W1) + b1),   h2 = relu (A (h1 W2) + b2)        A = the normalised adjacency with self loops,
                                                                       applied by gather, scale and scatter-add
      out = (mean over each graph's 2000 nodes of h2) Wh + bh

  The kernel program computes h0, the two products with W1 and W2, and the pooled head in four pallas regions, and
  everything about the edges with the same host operations as the reference.  Its regions differ from the reference
  only in arrangement: a mean is a sum times the named reciprocal 1/50 (1/2000) where the reference divides by 50
  (2000), which is the same on every extended real; a product is computed block of rows by block of rows; the head's
  bias is laid out as a row by a reshape where the reference broadcasts it.

  * Proof/Spec.lean      the network once, over whole arrays;
  * Proof/Region0..3     each region's output array is the corresponding piece of that network of the arrays the
                         region finds;
  * Proof/Thread.lean    the buffers followed through the host operations between the regions: the kernel program's
                         result is the network of its arguments;
  * Proof/RefSide.lean   the reference's result is the network of its arguments;
  * Proof/KernelRun.lean, Proof/RefRun.lean   the two runs.
  The three frames are the runs with the values dropped; the two ledger entries are the named constants' values.
-/
import proofs.«408987_j65163243815592_3_alg».proof.Defs
import proofs.«408987_j65163243815592_3_alg».proof.Proof.Gen.Kernel
import proofs.«408987_j65163243815592_3_alg».proof.Proof.Gen.Kernel.Skeleton
import proofs.«408987_j65163243815592_3_alg».proof.Proof.Gen.Kernel.Launch
import proofs.«408987_j65163243815592_3_alg».proof.Proof.Gen.Kernel.Points
import proofs.«408987_j65163243815592_3_alg».proof.Proof.Gen.Kernel.Frame
import proofs.«408987_j65163243815592_3_alg».proof.Proof.Gen.KernelIdeal
import proofs.«408987_j65163243815592_3_alg».proof.Proof.Gen.KernelIdeal.Skeleton
import proofs.«408987_j65163243815592_3_alg».proof.Proof.Gen.KernelIdeal.Launch
import proofs.«408987_j65163243815592_3_alg».proof.Proof.Gen.KernelIdeal.Points
import proofs.«408987_j65163243815592_3_alg».proof.Proof.Gen.KernelIdeal.Frame
import proofs.«408987_j65163243815592_3_alg».proof.Proof.Gen.ReferenceIdeal
import proofs.«408987_j65163243815592_3_alg».proof.Proof.Gen.Pre_finite_inputs
import proofs.«408987_j65163243815592_3_alg».proof.Proof.KernelRun
import proofs.«408987_j65163243815592_3_alg».proof.Proof.RefRun
import proofs.«408987_j65163243815592_3_alg».proof.Proof.RefSide
import proofs.«408987_j65163243815592_3_alg».proof.Proof.Thread
import Idealize.ShloMosaic.Adequacy
import Idealize.ShloMosaic.Init

noncomputable section

namespace Cert.Proof

open Idealize.ShloMosaic Idealize.ShloMosaic.TcCoe Idealize.SL.Sem

/-- The word-level kernel program runs and leaves its arguments. -/
theorem frame_kernel : Cert.frame_Kernel := fun m ρ _ => Cert.Kernel.Gen.frame m ρ

/-- The idealized kernel program runs and leaves its arguments. -/
theorem frame_kernelIdeal : Cert.frame_KernelIdeal := fun m ρ _ => Cert.KernelIdeal.Gen.frame m ρ

/-- The reference runs and leaves its arguments: its run, the result's value dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The two named reciprocals denote 1/50 and 1/2000. -/
theorem preserves : Cert.preserves_Kernel_KernelIdeal :=
  ⟨IdealRules.named_const.statement Cert.KernelIdeal.κ "inv_50" .f32 0x3CA3D70A#32 ((1 / 50 : ℝ) : EReal) rfl,
   IdealRules.named_const.statement Cert.KernelIdeal.κ "inv_2000" .f32 0x3A03126F#32 ((1 / 2000 : ℝ) : EReal) rfl⟩

/-- Both programs end with the network of their arguments, and the arguments agree. -/
theorem algebraic : Cert.algebraic_KernelIdeal_ReferenceIdeal := by
  intro m ρ m' ρ' _ hagree
  refine ⟨fun c => Cert.Spec.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Thread.result_value m ρ c), (h c).2⟩)
      (Cert.KernelIdeal.RunV.run_result (F := Ideal) m ρ)
  · refine (θ_run Cert.ReferenceIdeal.defs _ _).mono (fun _ h c => ⟨(h c).1.trans ?_, (h c).2⟩)
      (Cert.ReferenceIdeal.RunP.run (F := Ideal) m' ρ')
    obtain ⟨e0, e1, e2, e3, e4, e5, e6, e7⟩ := hagree c
    rw [Cert.ReferenceIdeal.RefSide.res_eq_whole, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
